-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x768 : Shape := ⟨2, ![32, 768]⟩
abbrev S768x100000 : Shape := ⟨2, ![768, 100000]⟩
abbrev S100000 : Shape := ⟨1, ![100000]⟩
abbrev S_ : Shape := ⟨0, ![]⟩

class Facts : Prop where
  bcast_S_S32x768 : S_.BroadcastsInDim S32x768 (![] : Fin 0 → Fin S32x768.rank)
  reducesTo_S32x768_S_d0_1 : S32x768.ReducesTo [0, 1] S_
  h_S_ : 0 < S_.numel
  bcast_S_S768x100000 : S_.BroadcastsInDim S768x100000 (![] : Fin 0 → Fin S768x100000.rank)
  reducesTo_S768x100000_S_d0_1 : S768x100000.ReducesTo [0, 1] S_
  bcast_S_S100000 : S_.BroadcastsInDim S100000 (![] : Fin 0 → Fin S100000.rank)
  reducesTo_S100000_S_d0 : S100000.ReducesTo [0] S_

variable [Facts]

def fn_part1 {F : FTy → Type} [FloatOps F] (main_v13 : IVec S_ 1) (main_v16 : IVec S100000 1) : IVec S_ 1 :=
  let main_c_5 : IVec S_ 1 := constantI S_ 1 1#1
  let main_v17 : IVec S_ 1 := (fun x v => Host.reduce IntOp.andi x v reducesTo_S100000_S_d0 h_S_) main_v16 main_c_5
  let main_v18 : IVec S_ 1 := andi main_v13 main_v17
  main_v18

def fn {F : FTy → Type} [FloatOps F] (main_arg0 : FVec F S32x768 .f32) (main_arg1 : FVec F S768x100000 .f32) (main_arg2 : FVec F S100000 .f32) (main_arg3 : FVec F S100000 .f32) : IVec S_ 1 :=
  let main_v0 : FVec F S32x768 .f32 := Host.absf main_arg0
  let main_cst : FVec F S_ .f32 := constant S_ .f32 0x7F800000#32
  let main_v1 : FVec F S32x768 .f32 := broadcastInDim S32x768 ![] bcast_S_S32x768 main_cst
  let main_v2 : IVec S32x768 1 := cmpf .olt main_v0 main_v1
  let main_c : IVec S_ 1 := constantI S_ 1 1#1
  let main_v3 : IVec S_ 1 := (fun x v => Host.reduce IntOp.andi x v reducesTo_S32x768_S_d0_1 h_S_) main_v2 main_c
  let main_v4 : FVec F S768x100000 .f32 := Host.absf main_arg1
  let main_cst_0 : FVec F S_ .f32 := constant S_ .f32 0x7F800000#32
  let main_v5 : FVec F S768x100000 .f32 := broadcastInDim S768x100000 ![] bcast_S_S768x100000 main_cst_0
  let main_v6 : IVec S768x100000 1 := cmpf .olt main_v4 main_v5
  let main_c_1 : IVec S_ 1 := constantI S_ 1 1#1
  let main_v7 : IVec S_ 1 := (fun x v => Host.reduce IntOp.andi x v reducesTo_S768x100000_S_d0_1 h_S_) main_v6 main_c_1
  let main_v8 : IVec S_ 1 := andi main_v3 main_v7
  let main_v9 : FVec F S100000 .f32 := Host.absf main_arg2
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_v14 : FVec F S100000 .f32 := Host.absf main_arg3
  let main_cst_4 : FVec F S_ .f32 := constant S_ .f32 0x7F800000#32
  let main_v15 : FVec F S100000 .f32 := broadcastInDim S100000 ![] bcast_S_S100000 main_cst_4
  let main_v16 : IVec S100000 1 := cmpf .olt main_v14 main_v15
  fn_part1 (F := F) main_v13 main_v16
-- ==== Kernel.lean ====
abbrev S32x768 : Shape := ⟨2, ![32, 768]⟩
abbrev S768x100000 : Shape := ⟨2, ![768, 100000]⟩
abbrev S100000 : Shape := ⟨1, ![100000]⟩
abbrev S1x100000 : Shape := ⟨2, ![1, 100000]⟩
abbrev S768x32 : Shape := ⟨2, ![768, 32]⟩
abbrev S32x100000 : Shape := ⟨2, ![32, 100000]⟩
abbrev S32x32 : Shape := ⟨2, ![32, 32]⟩

abbrev nBuf : Space → Nat
  | .hbm => 8
  | .vmem => 7
  | .smem => 0
  | _ => 0

abbrev bufTy : (tb : Table) → Fin (tcTables nBuf tb) → BufTy
  | .hbm, ⟨0, _⟩ => ⟨S32x768, .f32⟩
  | .hbm, ⟨1, _⟩ => ⟨S768x100000, .f32⟩
  | .hbm, ⟨2, _⟩ => ⟨S100000, .f32⟩
  | .hbm, ⟨3, _⟩ => ⟨S100000, .f32⟩
  | .hbm, ⟨4, _⟩ => ⟨S1x100000, .f32⟩
  | .hbm, ⟨5, _⟩ => ⟨S1x100000, .f32⟩
  | .hbm, ⟨6, _⟩ => ⟨S768x32, .f32⟩
  | .hbm, ⟨7, _⟩ => ⟨S32x100000, .f32⟩
  | .local _ .vmem, ⟨0, _⟩ => ⟨S32x32, .f32⟩
  | .local _ .vmem, ⟨1, _⟩ => ⟨S32x32, .f32⟩
  | .local _ .vmem, ⟨2, _⟩ => ⟨S32x100000, .f32⟩
  | .local _ .vmem, ⟨3, _⟩ => ⟨S32x100000, .f32⟩
  | .local _ .vmem, ⟨4, _⟩ => ⟨S1x100000, .f32⟩
  | .local _ .vmem, ⟨5, _⟩ => ⟨S1x100000, .f32⟩
  | .local _ .vmem, ⟨6, _⟩ => ⟨S32x100000, .f32⟩
  | _, _ => ⟨S32x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![24], ![false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg0 : BitVec 32 := BitVec.ofNat 32 (i 0).val
  let c0_i32_4 : BitVec 32 := 0#32
  let v7 : BitVec 1 := Scalar.cmpi .ne arg0 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x100000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x100000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x100000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x100000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S100000_S1x100000 : S100000.ShapeCasts S1x100000
  transposes_S32x768_S768x32_1_0 : S32x768.Transposes [1, 0] S768x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S32x100000_S32x100000_0_0 : ∀ a, (![0, 0] : Fin 2 → Nat) a + S32x100000.size a ≤ S32x100000.size a
  h_S32x100000 : 0 < S32x100000.numel
  inb_S1x100000_S1x100000_0_0 : ∀ a, (![0, 0] : Fin 2 → Nat) a + S1x100000.size a ≤ S1x100000.size a
  h_S1x100000 : 0 < S1x100000.numel
  shapeCasts_S1x100000_S1x100000 : S1x100000.ShapeCasts S1x100000
  broadcasts_S1x100000_S32x100000 : S1x100000.Broadcasts S32x100000
  shapeCasts_S32x100000_S32x100000 : S32x100000.ShapeCasts S32x100000
  dot_S32x32_S32x100000_S32x100000_0_0_1_1_n_n_wf : DotDims.WF S32x32 S32x100000 S32x100000 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x32.size a ≤ S768x32.size a
  hwx0_0 : ∀ i : grid0.Coords, EltTy.bits .f32 = 32 ∨ (Rect.block (s := S768x32) S32x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x100000.size a ≤ S768x100000.size a
  hwx0_1 : ∀ i : grid0.Coords, EltTy.bits .f32 = 32 ∨ (Rect.block (s := S768x100000) S32x100000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x100000.size a ≤ S1x100000.size a
  hwx0_2 : ∀ i : grid0.Coords, EltTy.bits .f32 = 32 ∨ (Rect.block (s := S1x100000) S1x100000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x100000.size a ≤ S1x100000.size a
  hwx0_3 : ∀ i : grid0.Coords, EltTy.bits .f32 = 32 ∨ (Rect.block (s := S1x100000) S1x100000.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x100000.size a ≤ S32x100000.size a
  hwx0_4 : ∀ i : grid0.Coords, EltTy.bits .f32 = 32 ∨ (Rect.block (s := S32x100000) S32x100000.size (cc0_transform_4 i) (hinb0_4 i)).WholeWords (EltTy.packing .f32)

variable [Facts₀]

def dot_S32x32_S32x100000_S32x100000_0_0_1_1_n_n : DotDims S32x32 S32x100000 S32x100000 where
  lhsContracting := [0]
  rhsContracting := [0]
  lhsNonContracting := [1]
  rhsNonContracting := [1]
  lhsBatch := []
  rhsBatch := []
  wf := dot_S32x32_S32x100000_S32x100000_0_0_1_1_n_n_wf

abbrev win0_0 : Pipeline.Window sig grid0 :=
  Pipeline.Window.ofSpec (Memref.whole main_v2) S32x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x100000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x100000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x100000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S32x100000.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond1 i == 1#1) && !(k0_cond2 i == 1#1) | ⟨_ + 5, h⟩ => absurd h (Nat.not_lt.2 (Nat.le_add_left _ _))

class Facts : Prop extends Facts₀ where

variable [Facts]
-- ==== ReferenceIdeal.lean ====
abbrev S32x768 : Shape := ⟨2, ![32, 768]⟩
abbrev S768x100000 : Shape := ⟨2, ![768, 100000]⟩
abbrev S100000 : Shape := ⟨1, ![100000]⟩
abbrev S32x100000 : Shape := ⟨2, ![32, 100000]⟩
abbrev S1x100000 : Shape := ⟨2, ![1, 100000]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S32x768, .f32⟩
  | .hbm, ⟨1, _⟩ => ⟨S768x100000, .f32⟩
  | .hbm, ⟨2, _⟩ => ⟨S100000, .f32⟩
  | .hbm, ⟨3, _⟩ => ⟨S100000, .f32⟩
  | .hbm, ⟨4, _⟩ => ⟨S32x100000, .f32⟩
  | .hbm, ⟨5, _⟩ => ⟨S1x100000, .f32⟩
  | .hbm, ⟨6, _⟩ => ⟨S32x100000, .f32⟩
  | .hbm, ⟨7, _⟩ => ⟨S32x100000, .f32⟩
  | .hbm, ⟨8, _⟩ => ⟨S1x100000, .f32⟩
  | .hbm, ⟨9, _⟩ => ⟨S_, .f32⟩
  | .hbm, ⟨10, _⟩ => ⟨S1x100000, .f32⟩
  | .hbm, ⟨11, _⟩ => ⟨S1x100000, .f32⟩
  | .hbm, ⟨12, _⟩ => ⟨S_, .f32⟩
  | .hbm, ⟨13, _⟩ => ⟨S1x100000, .f32⟩
  | .hbm, ⟨14, _⟩ => ⟨S1x100000, .f32⟩
  | .hbm, ⟨15, _⟩ => ⟨S_, .f32⟩
  | .hbm, ⟨16, _⟩ => ⟨S1x100000, .f32⟩
  | .hbm, ⟨17, _⟩ => ⟨S1x100000, .f32⟩
  | .hbm, ⟨18, _⟩ => ⟨S1x100000, .f32⟩
  | .hbm, ⟨19, _⟩ => ⟨S32x100000, .f32⟩
  | .hbm, ⟨20, _⟩ => ⟨S32x100000, .f32⟩
  | _, _ => ⟨S32x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S100000_S1x100000_1 : S100000.BroadcastsInDim S1x100000 (![1] : Fin 1 → Fin S1x100000.rank)
  bcast_S1x100000_S32x100000_0_1 : S1x100000.BroadcastsInDim S32x100000 (![0, 1] : Fin 2 → Fin S32x100000.rank)
  shapeCasts_S100000_S1x100000 : S100000.ShapeCasts S1x100000
  bcast_S_S1x100000 : S_.BroadcastsInDim S1x100000 (![] : Fin 0 → Fin S1x100000.rank)
  dot_S32x768_S768x100000_S32x100000_1_0_0_1_n_n_wf : DotDims.WF S32x768 S768x100000 S32x100000 [1] [0] [0] [1] [] []

variable [Facts₀]

def dot_S32x768_S768x100000_S32x100000_1_0_0_1_n_n : DotDims S32x768 S768x100000 S32x100000 where
  lhsContracting := [1]
  rhsContracting := [0]
  lhsNonContracting := [0]
  rhsNonContracting := [1]
  lhsBatch := []
  rhsBatch := []
  wf := dot_S32x768_S768x100000_S32x100000_1_0_0_1_n_n_wf

class Facts : Prop extends Facts₀ where

variable [Facts]
-- ==== Proof.Kernel.Body.lean ====
/-
  The kernel's run through its grid, and what its result block holds after each grid point.

  The grid has 24 points, one per block of 32 contraction positions. The result block (all of the
  32 × 100000 result) stays in its staging buffer from the first point to the last and is written back once,
  after point 23. Point 0 takes the first branch of the body: it stores (first partial product + bias row) +
  mask row. Every later point takes the second branch: it loads what the point before left and stores that
  plus its own partial product. No point takes neither branch, so the result window is never idle, and what a
  later point finds in the buffer is exactly what the point before stored.

  Stated here for any float instance: the two branch runs, the contents after each point by recursion on the
  point (`held`), the pipeline's proof data over it, the body obligation, the whole run and the frame.
-/
import proofs.«129649_g78194174591064_cont_9to1_m_1273_10_alg».proof.Proof.Gen.Kernel.Frame
import proofs.«129649_g78194174591064_cont_9to1_m_1273_10_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which branch a grid point takes -/

/-- The first branch's condition holds at point 0 and nowhere else. -/
theorem first_iff : ∀ t : Fin cfg0.N, k0_cond1 (grid0.coords t) = 1#1 ↔ t.val = 0 :=
  (by decide +kernel : ∀ t : Fin grid0.N, k0_cond1 (grid0.coords t) = 1#1 ↔ t.val = 0)

/-- The second branch's condition holds at every point but point 0. -/
theorem later_iff : ∀ t : Fin cfg0.N, k0_cond2 (grid0.coords t) = 1#1 ↔ t.val ≠ 0 :=
  (by decide +kernel : ∀ t : Fin grid0.N, k0_cond2 (grid0.coords t) = 1#1 ↔ t.val ≠ 0)

/-- At every value of the grid coordinate one of the two conditions holds: the result window is never idle. -/
theorem result_live : ∀ i : grid0.Coords, cfg0.idle 4 i = false := by decide +kernel

/-! ## The staging memrefs the body is called with -/

abbrev stg0 (t : Fin cfg0.N) : Memref sig .tc .vmem S32x32 .f32 := win0_0.stage (cfg0.slots t 0)
abbrev whole0 (t : Fin cfg0.N) : (stg0 t).IsWhole := hstage0_0 ((cfg0.slots t 0).cast nbuf0_0)
abbrev stg1 (t : Fin cfg0.N) : Memref sig .tc .vmem S32x100000 .f32 := win0_1.stage (cfg0.slots t 1)
abbrev whole1 (t : Fin cfg0.N) : (stg1 t).IsWhole := hstage0_1 ((cfg0.slots t 1).cast nbuf0_1)
abbrev stg2 (t : Fin cfg0.N) : Memref sig .tc .vmem S1x100000 .f32 := win0_2.stage (cfg0.slots t 2)
abbrev whole2 (t : Fin cfg0.N) : (stg2 t).IsWhole := hstage0_2 ((cfg0.slots t 2).cast nbuf0_2)
abbrev stg3 (t : Fin cfg0.N) : Memref sig .tc .vmem S1x100000 .f32 := win0_3.stage (cfg0.slots t 3)
abbrev whole3 (t : Fin cfg0.N) : (stg3 t).IsWhole := hstage0_3 ((cfg0.slots t 3).cast nbuf0_3)
abbrev stg4 (t : Fin cfg0.N) : Memref sig .tc .vmem S32x100000 .f32 := win0_4.stage (cfg0.slots t 4)
abbrev whole4 (t : Fin cfg0.N) : (stg4 t).IsWhole := hstage0_4 ((cfg0.slots t 4).cast nbuf0_4)

/-- The result window's one staging buffer, as a view. -/
abbrev resView : View sig .tc .vmem S32x100000 .f32 := (Memref.whole cc0_stg4_0 : Memref sig .tc .vmem S32x100000 .f32).view

/-! ## The two branch runs -/

set_option maxHeartbeats 1000000 in
/-- POINT 0's run: the first branch is taken, the second is not. On whole staging memrefs, the four inputs at
    their contents and the result buffer at anything, the body runs to the end, the inputs as they were and the
    result buffer with the pieces `L` written — the list this run finds: its one whole-block store. -/
noncomputable def runFirst (c : Dev nD) (i : grid0.Coords)
    (a1 : Memref sig .tc .vmem S32x32 .f32) (h1 : a1.IsWhole) (a2 : Memref sig .tc .vmem S32x100000 .f32) (h2 : a2.IsWhole)
    (a3 : Memref sig .tc .vmem S1x100000 .f32) (h3 : a3.IsWhole) (a4 : Memref sig .tc .vmem S1x100000 .f32) (h4 : a4.IsWhole)
    (a5 : Memref sig .tc .vmem S32x100000 .f32) (h5 : a5.IsWhole)
    (hc1 : k0_cond1 i = 1#1) (hc2 : ¬k0_cond2 i = 1#1)
    (x0 : Vec F S32x32 .f32) (x1 : Vec F S32x100000 .f32) (x2 : Vec F S1x100000 .f32) (x3 : Vec F S1x100000 .f32) :
    { L : List (View.Piece (Elt F) S32x100000 .f32) //
      ∀ (E : Set ℕ) (K : PUnit → sProp 𝕄),
        iprop(owns (c : Thread nD τ) a1 fullShare x0 ∗ owns (c : Thread nD τ) a2 fullShare x1 ∗ owns (c : Thread nD τ) a3 fullShare x2
            ∗ owns (c : Thread nD τ) a4 fullShare x3 ∗ (∃ d, owns (c : Thread nD τ) a5 fullShare d)
            ∗ (iprop(owns (c : Thread nD τ) a1 fullShare x0 ∗ owns (c : Thread nD τ) a2 fullShare x1 ∗ owns (c : Thread nD τ) a3 fullShare x2
                ∗ owns (c : Thread nD τ) a4 fullShare x3
                ∗ (∃ f, a5.view.loc (c : Thread nD τ) ↦[a5.view.set]{fullShare} a5.view.writes (Elt F) f L)) -∗ K ⟨⟩))
          ⊢ wp frame (wpE (defs₀ (F := F)) Variants.none c none) E (cc0__body i a1 h1 a2 h2 a3 h3 a4 h4 a5 h5) K } := by
  refine ⟨?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := h1.eq_unread hf0; obtain rfl := h2.eq_unread hf1; obtain rfl := h3.eq_unread hf2; obtain rfl := h4.eq_unread hf3
    sl_exec (disch := first | exact hc1 | exact hc2)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    iexists _; iexact H4

set_option maxHeartbeats 1000000 in
/-- A LATER point's run: the first branch is not taken, the second is. The result buffer is read before it is
    stored, so it comes in at named contents `acc` (what the point before left); it goes out with the pieces `L`
    written — again one whole-block store, found by the run. -/
noncomputable def runLater (c : Dev nD) (i : grid0.Coords)
    (a1 : Memref sig .tc .vmem S32x32 .f32) (h1 : a1.IsWhole) (a2 : Memref sig .tc .vmem S32x100000 .f32) (h2 : a2.IsWhole)
    (a3 : Memref sig .tc .vmem S1x100000 .f32) (h3 : a3.IsWhole) (a4 : Memref sig .tc .vmem S1x100000 .f32) (h4 : a4.IsWhole)
    (a5 : Memref sig .tc .vmem S32x100000 .f32) (h5 : a5.IsWhole)
    (hc1 : ¬k0_cond1 i = 1#1) (hc2 : k0_cond2 i = 1#1)
    (x0 : Vec F S32x32 .f32) (x1 : Vec F S32x100000 .f32) (x2 : Vec F S1x100000 .f32) (x3 : Vec F S1x100000 .f32)
    (acc : Vec F S32x100000 .f32) :
    { L : List (View.Piece (Elt F) S32x100000 .f32) //
      ∀ (E : Set ℕ) (K : PUnit → sProp 𝕄),
        iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare acc
            ∗ (iprop(owns (c : Thread nD τ) a1 fullShare x0 ∗ owns (c : Thread nD τ) a2 fullShare x1 ∗ owns (c : Thread nD τ) a3 fullShare x2
                ∗ owns (c : Thread nD τ) a4 fullShare x3
                ∗ (∃ f, a5.view.loc (c : Thread nD τ) ↦[a5.view.set]{fullShare} a5.view.writes (Elt F) f L)) -∗ K ⟨⟩))
          ⊢ wp frame (wpE (defs₀ (F := F)) Variants.none c none) E (cc0__body i a1 h1 a2 h2 a3 h3 a4 h4 a5 h5) K } := by
  refine ⟨?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := h1.eq_unread hf0; obtain rfl := h2.eq_unread hf1; obtain rfl := h3.eq_unread hf2; obtain rfl := h4.eq_unread hf3
    obtain rfl := h5.eq_unread hf4
    sl_exec (disch := first | exact hc1 | exact hc2)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    iexists _; iexact H4

/-! ## What the result buffer holds after each point -/

theorem hz : (![0, 0] : Fin 2 → Nat) = fun _ => 0 := funext fun a => by fin_cases a <;> rfl

/-- Point 0's pieces cover the result block. -/
theorem coverFirst (c : Dev nD) (i : grid0.Coords)
    (a1 : Memref sig .tc .vmem S32x32 .f32) (h1 : a1.IsWhole) (a2 : Memref sig .tc .vmem S32x100000 .f32) (h2 : a2.IsWhole)
    (a3 : Memref sig .tc .vmem S1x100000 .f32) (h3 : a3.IsWhole) (a4 : Memref sig .tc .vmem S1x100000 .f32) (h4 : a4.IsWhole)
    (a5 : Memref sig .tc .vmem S32x100000 .f32) (h5 : a5.IsWhole)
    (hc1 : k0_cond1 i = 1#1) (hc2 : ¬k0_cond2 i = 1#1)
    (x0 : Vec F S32x32 .f32) (x1 : Vec F S32x100000 .f32) (x2 : Vec F S1x100000 .f32) (x3 : Vec F S1x100000 .f32)
    (y : S32x100000.Idx) :
    ∃ pc ∈ (runFirst c i a1 h1 a2 h2 a3 h3 a4 h4 a5 h5 hc1 hc2 x0 x1 x2 x3).1, y ∈ pc.1.set :=
  View.cover_of_tiledL (runFirst c i a1 h1 a2 h2 a3 h3 a4 h4 a5 h5 hc1 hc2 x0 x1 x2 x3).1 S32x100000.size (by sl_kernel_rfl) y

/-- What point 0 leaves in the result buffer: its pieces read back. -/
def outFirst (c : Dev nD) (i : grid0.Coords)
    (a1 : Memref sig .tc .vmem S32x32 .f32) (h1 : a1.IsWhole) (a2 : Memref sig .tc .vmem S32x100000 .f32) (h2 : a2.IsWhole)
    (a3 : Memref sig .tc .vmem S1x100000 .f32) (h3 : a3.IsWhole) (a4 : Memref sig .tc .vmem S1x100000 .f32) (h4 : a4.IsWhole)
    (a5 : Memref sig .tc .vmem S32x100000 .f32) (h5 : a5.IsWhole)
    (hc1 : k0_cond1 i = 1#1) (hc2 : ¬k0_cond2 i = 1#1)
    (x0 : Vec F S32x32 .f32) (x1 : Vec F S32x100000 .f32) (x2 : Vec F S1x100000 .f32) (x3 : Vec F S1x100000 .f32) :
    Vec F S32x100000 .f32 :=
  resView.read (Elt F) (resView.writes (Elt F) resView.junk (runFirst c i a1 h1 a2 h2 a3 h3 a4 h4 a5 h5 hc1 hc2 x0 x1 x2 x3).1)

/-- A later point's pieces cover the result block. -/
theorem coverLater (c : Dev nD) (i : grid0.Coords)
    (a1 : Memref sig .tc .vmem S32x32 .f32) (h1 : a1.IsWhole) (a2 : Memref sig .tc .vmem S32x100000 .f32) (h2 : a2.IsWhole)
    (a3 : Memref sig .tc .vmem S1x100000 .f32) (h3 : a3.IsWhole) (a4 : Memref sig .tc .vmem S1x100000 .f32) (h4 : a4.IsWhole)
    (a5 : Memref sig .tc .vmem S32x100000 .f32) (h5 : a5.IsWhole)
    (hc1 : ¬k0_cond1 i = 1#1) (hc2 : k0_cond2 i = 1#1)
    (x0 : Vec F S32x32 .f32) (x1 : Vec F S32x100000 .f32) (x2 : Vec F S1x100000 .f32) (x3 : Vec F S1x100000 .f32)
    (acc : Vec F S32x100000 .f32) (y : S32x100000.Idx) :
    ∃ pc ∈ (runLater c i a1 h1 a2 h2 a3 h3 a4 h4 a5 h5 hc1 hc2 x0 x1 x2 x3 acc).1, y ∈ pc.1.set :=
  View.cover_of_tiledL (runLater c i a1 h1 a2 h2 a3 h3 a4 h4 a5 h5 hc1 hc2 x0 x1 x2 x3 acc).1 S32x100000.size (by sl_kernel_rfl) y

/-- What a later point leaves in the result buffer, having found `acc` there. -/
def outLater (c : Dev nD) (i : grid0.Coords)
    (a1 : Memref sig .tc .vmem S32x32 .f32) (h1 : a1.IsWhole) (a2 : Memref sig .tc .vmem S32x100000 .f32) (h2 : a2.IsWhole)
    (a3 : Memref sig .tc .vmem S1x100000 .f32) (h3 : a3.IsWhole) (a4 : Memref sig .tc .vmem S1x100000 .f32) (h4 : a4.IsWhole)
    (a5 : Memref sig .tc .vmem S32x100000 .f32) (h5 : a5.IsWhole)
    (hc1 : ¬k0_cond1 i = 1#1) (hc2 : k0_cond2 i = 1#1)
    (x0 : Vec F S32x32 .f32) (x1 : Vec F S32x100000 .f32) (x2 : Vec F S1x100000 .f32) (x3 : Vec F S1x100000 .f32)
    (acc : Vec F S32x100000 .f32) : Vec F S32x100000 .f32 :=
  resView.read (Elt F) (resView.writes (Elt F) resView.junk (runLater c i a1 h1 a2 h2 a3 h3 a4 h4 a5 h5 hc1 hc2 x0 x1 x2 x3 acc).1)

/-- THE ACCUMULATION: what the result buffer holds after the body at point `n`. Point 0 leaves what its run
    stores; point `n + 1` leaves what its run stores over what point `n` left. -/
def held (c : Dev nD) : (n : ℕ) → n < cfg0.N → Vec F S32x100000 .f32
  | 0, hn => outFirst c (grid0.coords ⟨0, hn⟩) (stg0 ⟨0, hn⟩) (whole0 ⟨0, hn⟩) (stg1 ⟨0, hn⟩) (whole1 ⟨0, hn⟩) (stg2 ⟨0, hn⟩) (whole2 ⟨0, hn⟩)
      (stg3 ⟨0, hn⟩) (whole3 ⟨0, hn⟩) (stg4 ⟨0, hn⟩) (whole4 ⟨0, hn⟩)
      ((first_iff ⟨0, hn⟩).mpr rfl) (fun h => (later_iff ⟨0, hn⟩).mp h rfl)
      (iblk m c 0 ⟨0, hn⟩) (iblk m c 1 ⟨0, hn⟩) (iblk m c 2 ⟨0, hn⟩) (iblk m c 3 ⟨0, hn⟩)
  | n + 1, hn => outLater c (grid0.coords ⟨n + 1, hn⟩) (stg0 ⟨n + 1, hn⟩) (whole0 ⟨n + 1, hn⟩) (stg1 ⟨n + 1, hn⟩) (whole1 ⟨n + 1, hn⟩)
      (stg2 ⟨n + 1, hn⟩) (whole2 ⟨n + 1, hn⟩) (stg3 ⟨n + 1, hn⟩) (whole3 ⟨n + 1, hn⟩) (stg4 ⟨n + 1, hn⟩) (whole4 ⟨n + 1, hn⟩)
      (fun h => Nat.succ_ne_zero n ((first_iff ⟨n + 1, hn⟩).mp h)) ((later_iff ⟨n + 1, hn⟩).mpr (Nat.succ_ne_zero n))
      (iblk m c 0 ⟨n + 1, hn⟩) (iblk m c 1 ⟨n + 1, hn⟩) (iblk m c 2 ⟨n + 1, hn⟩) (iblk m c 3 ⟨n + 1, hn⟩)
      (held c n (Nat.lt_of_succ_lt hn))

/-- `held` at point 0. -/
theorem held_first (c : Dev nD) (t : Fin cfg0.N) (h0 : t.val = 0) :
    held m c t.val t.isLt = outFirst c (grid0.coords t) (stg0 t) (whole0 t) (stg1 t) (whole1 t) (stg2 t) (whole2 t) (stg3 t) (whole3 t) (stg4 t) (whole4 t)
      ((first_iff t).mpr h0) (fun h => (later_iff t).mp h h0) (iblk m c 0 t) (iblk m c 1 t) (iblk m c 2 t) (iblk m c 3 t) := by
  obtain ⟨n, hn⟩ := t
  cases n with
  | zero => rfl
  | succ n => exact absurd h0 (Nat.succ_ne_zero n)

/-- `held` at a later point, over what the point before left. -/
theorem held_later (c : Dev nD) (t : Fin cfg0.N) (h0 : t.val ≠ 0) :
    held m c t.val t.isLt = outLater c (grid0.coords t) (stg0 t) (whole0 t) (stg1 t) (whole1 t) (stg2 t) (whole2 t) (stg3 t) (whole3 t) (stg4 t) (whole4 t)
      (fun h => h0 ((first_iff t).mp h)) ((later_iff t).mpr h0) (iblk m c 0 t) (iblk m c 1 t) (iblk m c 2 t) (iblk m c 3 t)
      (held m c (t.val - 1) (Nat.lt_of_le_of_lt (Nat.sub_le _ _) t.isLt)) := by
  obtain ⟨n, hn⟩ := t
  cases n with
  | zero => exact absurd rfl h0
  | succ n => rfl

/-! ## The pipeline's proof data -/

/-- On core `c`: the arrays as the region finds them; after the body at point `t` each input's buffer at its
    block and the result's at `held`; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => held m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = held m c t.val t.isLt := by dsimp only [dats]

/-- Each input's current staging buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- At a later point the result's staging buffer holds what the point before left: that point did not write the
    block back (only point 23 does) and the window is never idle. -/
theorem before_4_later (c : Dev nD) (t : Fin cfg0.N) (h0 : t.val ≠ 0) (d) :
    (dats m 0 c).before 4 t d = held m c (t.val - 1) (Nat.lt_of_le_of_lt (Nat.sub_le _ _) t.isLt) := by
  have hN : t.val < 24 := lt_of_lt_of_eq t.isLt (show cfg0.N = 24 from N_0)
  rw [Dat.before_out_kept _ 4 rfl t h0 (Bool.eq_false_iff.mpr fun h => by have := (flush0_4 _).mp h; dsimp only at this; omega)
    result_live (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_0 (c : Dev nD) (t : Fin cfg0.N) :
    (dats m 0 c).leavesExact 0 t = owns (c : Thread nD τ) (stg0 t) fullShare (iblk m c 0 t) := by
  unfold Dat.leavesExact; rw [show cfg0.idle 0 (cfg0.grid.coords t) = false from rfl, after_0]
theorem leaves_1 (c : Dev nD) (t : Fin cfg0.N) :
    (dats m 0 c).leavesExact 1 t = owns (c : Thread nD τ) (stg1 t) fullShare (iblk m c 1 t) := by
  unfold Dat.leavesExact; rw [show cfg0.idle 1 (cfg0.grid.coords t) = false from rfl, after_1]
theorem leaves_2 (c : Dev nD) (t : Fin cfg0.N) :
    (dats m 0 c).leavesExact 2 t = owns (c : Thread nD τ) (stg2 t) fullShare (iblk m c 2 t) := by
  unfold Dat.leavesExact; rw [show cfg0.idle 2 (cfg0.grid.coords t) = false from rfl, after_2]
theorem leaves_3 (c : Dev nD) (t : Fin cfg0.N) :
    (dats m 0 c).leavesExact 3 t = owns (c : Thread nD τ) (stg3 t) fullShare (iblk m c 3 t) := by
  unfold Dat.leavesExact; rw [show cfg0.idle 3 (cfg0.grid.coords t) = false from rfl, after_3]
theorem leaves_4 (c : Dev nD) (t : Fin cfg0.N) :
    (dats m 0 c).leavesExact 4 t = owns (c : Thread nD τ) (stg4 t) fullShare (held m c t.val t.isLt) := by
  unfold Dat.leavesExact; rw [result_live (cfg0.grid.coords t), after_4]

set_option maxHeartbeats 800000 in
/-- The body at any point. The inputs' memrefs hold their blocks. At point 0 the first run applies, whatever the
    result buffer holds; at a later point the buffer holds what the point before left, and the second run applies.
    Either way the pieces written cover the block, so the buffer ends at `held`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    leaves_0, leaves_1, leaves_2, leaves_3, leaves_4]
  by_cases h0 : t.val = 0
  · rw [held_first m c t h0]
    unfold outFirst
    iintro ⟨HΦ, Ho, ⟨%d0, H0⟩, ⟨%d1, H1⟩, ⟨%d2, H2⟩, ⟨%d3, H3⟩, ⟨%d4, H4⟩⟩
    iapply ((runFirst c (grid0.coords t) _ _ _ _ _ _ _ _ _ _ ((first_iff t).mpr h0) (fun h => (later_iff t).mp h h0)
      (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFirst c _ _ _ _ _ _ _ _ _ _ _ _ _ _ _ _ _)
  · rw [held_later m c t h0]
    simp only [before_4_later m c t h0]
    unfold outLater
    iintro ⟨HΦ, Ho, ⟨%d0, H0⟩, ⟨%d1, H1⟩, ⟨%d2, H2⟩, ⟨%d3, H3⟩, ⟨%d4, H4⟩⟩
    iapply ((runLater c (grid0.coords t) _ _ _ _ _ _ _ _ _ _ (fun h => h0 ((first_iff t).mp h)) ((later_iff t).mpr h0)
      (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverLater c _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, every array of the
    pipeline ending at what the proof data's write-backs make it and every other unscoped buffer as the region
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.KernelIdeal.Body.lean ====
/-
  The kernel's run through its grid, and what its result block holds after each grid point.

  The grid has 24 points, one per block of 32 contraction positions. The result block (all of the
  32 × 100000 result) stays in its staging buffer from the first point to the last and is written back once,
  after point 23. Point 0 takes the first branch of the body: it stores (first partial product + bias row) +
  mask row. Every later point takes the second branch: it loads what the point before left and stores that
  plus its own partial product. No point takes neither branch, so the result window is never idle, and what a
  later point finds in the buffer is exactly what the point before stored.

  Stated here for any float instance: the two branch runs, the contents after each point by recursion on the
  point (`held`), the pipeline's proof data over it, the body obligation, the whole run and the frame.
-/
import proofs.«129649_g78194174591064_cont_9to1_m_1273_10_alg».proof.Proof.Gen.KernelIdeal.Frame
import proofs.«129649_g78194174591064_cont_9to1_m_1273_10_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which branch a grid point takes -/

/-- The first branch's condition holds at point 0 and nowhere else. -/
theorem first_iff : ∀ t : Fin cfg0.N, k0_cond1 (grid0.coords t) = 1#1 ↔ t.val = 0 :=
  (by decide +kernel : ∀ t : Fin grid0.N, k0_cond1 (grid0.coords t) = 1#1 ↔ t.val = 0)

/-- The second branch's condition holds at every point but point 0. -/
theorem later_iff : ∀ t : Fin cfg0.N, k0_cond2 (grid0.coords t) = 1#1 ↔ t.val ≠ 0 :=
  (by decide +kernel : ∀ t : Fin grid0.N, k0_cond2 (grid0.coords t) = 1#1 ↔ t.val ≠ 0)

/-- At every value of the grid coordinate one of the two conditions holds: the result window is never idle. -/
theorem result_live : ∀ i : grid0.Coords, cfg0.idle 4 i = false := by decide +kernel

/-! ## The staging memrefs the body is called with -/

abbrev stg0 (t : Fin cfg0.N) : Memref sig .tc .vmem S32x32 .f32 := win0_0.stage (cfg0.slots t 0)
abbrev whole0 (t : Fin cfg0.N) : (stg0 t).IsWhole := hstage0_0 ((cfg0.slots t 0).cast nbuf0_0)
abbrev stg1 (t : Fin cfg0.N) : Memref sig .tc .vmem S32x100000 .f32 := win0_1.stage (cfg0.slots t 1)
abbrev whole1 (t : Fin cfg0.N) : (stg1 t).IsWhole := hstage0_1 ((cfg0.slots t 1).cast nbuf0_1)
abbrev stg2 (t : Fin cfg0.N) : Memref sig .tc .vmem S1x100000 .f32 := win0_2.stage (cfg0.slots t 2)
abbrev whole2 (t : Fin cfg0.N) : (stg2 t).IsWhole := hstage0_2 ((cfg0.slots t 2).cast nbuf0_2)
abbrev stg3 (t : Fin cfg0.N) : Memref sig .tc .vmem S1x100000 .f32 := win0_3.stage (cfg0.slots t 3)
abbrev whole3 (t : Fin cfg0.N) : (stg3 t).IsWhole := hstage0_3 ((cfg0.slots t 3).cast nbuf0_3)
abbrev stg4 (t : Fin cfg0.N) : Memref sig .tc .vmem S32x100000 .f32 := win0_4.stage (cfg0.slots t 4)
abbrev whole4 (t : Fin cfg0.N) : (stg4 t).IsWhole := hstage0_4 ((cfg0.slots t 4).cast nbuf0_4)

/-- The result window's one staging buffer, as a view. -/
abbrev resView : View sig .tc .vmem S32x100000 .f32 := (Memref.whole cc0_stg4_0 : Memref sig .tc .vmem S32x100000 .f32).view

/-! ## The two branch runs -/

set_option maxHeartbeats 1000000 in
/-- POINT 0's run: the first branch is taken, the second is not. On whole staging memrefs, the four inputs at
    their contents and the result buffer at anything, the body runs to the end, the inputs as they were and the
    result buffer with the pieces `L` written — the list this run finds: its one whole-block store. -/
noncomputable def runFirst (c : Dev nD) (i : grid0.Coords)
    (a1 : Memref sig .tc .vmem S32x32 .f32) (h1 : a1.IsWhole) (a2 : Memref sig .tc .vmem S32x100000 .f32) (h2 : a2.IsWhole)
    (a3 : Memref sig .tc .vmem S1x100000 .f32) (h3 : a3.IsWhole) (a4 : Memref sig .tc .vmem S1x100000 .f32) (h4 : a4.IsWhole)
    (a5 : Memref sig .tc .vmem S32x100000 .f32) (h5 : a5.IsWhole)
    (hc1 : k0_cond1 i = 1#1) (hc2 : ¬k0_cond2 i = 1#1)
    (x0 : Vec F S32x32 .f32) (x1 : Vec F S32x100000 .f32) (x2 : Vec F S1x100000 .f32) (x3 : Vec F S1x100000 .f32) :
    { L : List (View.Piece (Elt F) S32x100000 .f32) //
      ∀ (E : Set ℕ) (K : PUnit → sProp 𝕄),
        iprop(owns (c : Thread nD τ) a1 fullShare x0 ∗ owns (c : Thread nD τ) a2 fullShare x1 ∗ owns (c : Thread nD τ) a3 fullShare x2
            ∗ owns (c : Thread nD τ) a4 fullShare x3 ∗ (∃ d, owns (c : Thread nD τ) a5 fullShare d)
            ∗ (iprop(owns (c : Thread nD τ) a1 fullShare x0 ∗ owns (c : Thread nD τ) a2 fullShare x1 ∗ owns (c : Thread nD τ) a3 fullShare x2
                ∗ owns (c : Thread nD τ) a4 fullShare x3
                ∗ (∃ f, a5.view.loc (c : Thread nD τ) ↦[a5.view.set]{fullShare} a5.view.writes (Elt F) f L)) -∗ K ⟨⟩))
          ⊢ wp frame (wpE (defs₀ (F := F)) Variants.none c none) E (cc0__body i a1 h1 a2 h2 a3 h3 a4 h4 a5 h5) K } := by
  refine ⟨?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := h1.eq_unread hf0; obtain rfl := h2.eq_unread hf1; obtain rfl := h3.eq_unread hf2; obtain rfl := h4.eq_unread hf3
    sl_exec (disch := first | exact hc1 | exact hc2)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    iexists _; iexact H4

set_option maxHeartbeats 1000000 in
/-- A LATER point's run: the first branch is not taken, the second is. The result buffer is read before it is
    stored, so it comes in at named contents `acc` (what the point before left); it goes out with the pieces `L`
    written — again one whole-block store, found by the run. -/
noncomputable def runLater (c : Dev nD) (i : grid0.Coords)
    (a1 : Memref sig .tc .vmem S32x32 .f32) (h1 : a1.IsWhole) (a2 : Memref sig .tc .vmem S32x100000 .f32) (h2 : a2.IsWhole)
    (a3 : Memref sig .tc .vmem S1x100000 .f32) (h3 : a3.IsWhole) (a4 : Memref sig .tc .vmem S1x100000 .f32) (h4 : a4.IsWhole)
    (a5 : Memref sig .tc .vmem S32x100000 .f32) (h5 : a5.IsWhole)
    (hc1 : ¬k0_cond1 i = 1#1) (hc2 : k0_cond2 i = 1#1)
    (x0 : Vec F S32x32 .f32) (x1 : Vec F S32x100000 .f32) (x2 : Vec F S1x100000 .f32) (x3 : Vec F S1x100000 .f32)
    (acc : Vec F S32x100000 .f32) :
    { L : List (View.Piece (Elt F) S32x100000 .f32) //
      ∀ (E : Set ℕ) (K : PUnit → sProp 𝕄),
        iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare acc
            ∗ (iprop(owns (c : Thread nD τ) a1 fullShare x0 ∗ owns (c : Thread nD τ) a2 fullShare x1 ∗ owns (c : Thread nD τ) a3 fullShare x2
                ∗ owns (c : Thread nD τ) a4 fullShare x3
                ∗ (∃ f, a5.view.loc (c : Thread nD τ) ↦[a5.view.set]{fullShare} a5.view.writes (Elt F) f L)) -∗ K ⟨⟩))
          ⊢ wp frame (wpE (defs₀ (F := F)) Variants.none c none) E (cc0__body i a1 h1 a2 h2 a3 h3 a4 h4 a5 h5) K } := by
  refine ⟨?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := h1.eq_unread hf0; obtain rfl := h2.eq_unread hf1; obtain rfl := h3.eq_unread hf2; obtain rfl := h4.eq_unread hf3
    obtain rfl := h5.eq_unread hf4
    sl_exec (disch := first | exact hc1 | exact hc2)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    iexists _; iexact H4

/-! ## What the result buffer holds after each point -/

theorem hz : (![0, 0] : Fin 2 → Nat) = fun _ => 0 := funext fun a => by fin_cases a <;> rfl

/-- Point 0's pieces cover the result block. -/
theorem coverFirst (c : Dev nD) (i : grid0.Coords)
    (a1 : Memref sig .tc .vmem S32x32 .f32) (h1 : a1.IsWhole) (a2 : Memref sig .tc .vmem S32x100000 .f32) (h2 : a2.IsWhole)
    (a3 : Memref sig .tc .vmem S1x100000 .f32) (h3 : a3.IsWhole) (a4 : Memref sig .tc .vmem S1x100000 .f32) (h4 : a4.IsWhole)
    (a5 : Memref sig .tc .vmem S32x100000 .f32) (h5 : a5.IsWhole)
    (hc1 : k0_cond1 i = 1#1) (hc2 : ¬k0_cond2 i = 1#1)
    (x0 : Vec F S32x32 .f32) (x1 : Vec F S32x100000 .f32) (x2 : Vec F S1x100000 .f32) (x3 : Vec F S1x100000 .f32)
    (y : S32x100000.Idx) :
    ∃ pc ∈ (runFirst c i a1 h1 a2 h2 a3 h3 a4 h4 a5 h5 hc1 hc2 x0 x1 x2 x3).1, y ∈ pc.1.set :=
  View.cover_of_tiledL (runFirst c i a1 h1 a2 h2 a3 h3 a4 h4 a5 h5 hc1 hc2 x0 x1 x2 x3).1 S32x100000.size (by sl_kernel_rfl) y

/-- What point 0 leaves in the result buffer: its pieces read back. -/
def outFirst (c : Dev nD) (i : grid0.Coords)
    (a1 : Memref sig .tc .vmem S32x32 .f32) (h1 : a1.IsWhole) (a2 : Memref sig .tc .vmem S32x100000 .f32) (h2 : a2.IsWhole)
    (a3 : Memref sig .tc .vmem S1x100000 .f32) (h3 : a3.IsWhole) (a4 : Memref sig .tc .vmem S1x100000 .f32) (h4 : a4.IsWhole)
    (a5 : Memref sig .tc .vmem S32x100000 .f32) (h5 : a5.IsWhole)
    (hc1 : k0_cond1 i = 1#1) (hc2 : ¬k0_cond2 i = 1#1)
    (x0 : Vec F S32x32 .f32) (x1 : Vec F S32x100000 .f32) (x2 : Vec F S1x100000 .f32) (x3 : Vec F S1x100000 .f32) :
    Vec F S32x100000 .f32 :=
  resView.read (Elt F) (resView.writes (Elt F) resView.junk (runFirst c i a1 h1 a2 h2 a3 h3 a4 h4 a5 h5 hc1 hc2 x0 x1 x2 x3).1)

/-- A later point's pieces cover the result block. -/
theorem coverLater (c : Dev nD) (i : grid0.Coords)
    (a1 : Memref sig .tc .vmem S32x32 .f32) (h1 : a1.IsWhole) (a2 : Memref sig .tc .vmem S32x100000 .f32) (h2 : a2.IsWhole)
    (a3 : Memref sig .tc .vmem S1x100000 .f32) (h3 : a3.IsWhole) (a4 : Memref sig .tc .vmem S1x100000 .f32) (h4 : a4.IsWhole)
    (a5 : Memref sig .tc .vmem S32x100000 .f32) (h5 : a5.IsWhole)
    (hc1 : ¬k0_cond1 i = 1#1) (hc2 : k0_cond2 i = 1#1)
    (x0 : Vec F S32x32 .f32) (x1 : Vec F S32x100000 .f32) (x2 : Vec F S1x100000 .f32) (x3 : Vec F S1x100000 .f32)
    (acc : Vec F S32x100000 .f32) (y : S32x100000.Idx) :
    ∃ pc ∈ (runLater c i a1 h1 a2 h2 a3 h3 a4 h4 a5 h5 hc1 hc2 x0 x1 x2 x3 acc).1, y ∈ pc.1.set :=
  View.cover_of_tiledL (runLater c i a1 h1 a2 h2 a3 h3 a4 h4 a5 h5 hc1 hc2 x0 x1 x2 x3 acc).1 S32x100000.size (by sl_kernel_rfl) y

/-- What a later point leaves in the result buffer, having found `acc` there. -/
def outLater (c : Dev nD) (i : grid0.Coords)
    (a1 : Memref sig .tc .vmem S32x32 .f32) (h1 : a1.IsWhole) (a2 : Memref sig .tc .vmem S32x100000 .f32) (h2 : a2.IsWhole)
    (a3 : Memref sig .tc .vmem S1x100000 .f32) (h3 : a3.IsWhole) (a4 : Memref sig .tc .vmem S1x100000 .f32) (h4 : a4.IsWhole)
    (a5 : Memref sig .tc .vmem S32x100000 .f32) (h5 : a5.IsWhole)
    (hc1 : ¬k0_cond1 i = 1#1) (hc2 : k0_cond2 i = 1#1)
    (x0 : Vec F S32x32 .f32) (x1 : Vec F S32x100000 .f32) (x2 : Vec F S1x100000 .f32) (x3 : Vec F S1x100000 .f32)
    (acc : Vec F S32x100000 .f32) : Vec F S32x100000 .f32 :=
  resView.read (Elt F) (resView.writes (Elt F) resView.junk (runLater c i a1 h1 a2 h2 a3 h3 a4 h4 a5 h5 hc1 hc2 x0 x1 x2 x3 acc).1)

/-- THE ACCUMULATION: what the result buffer holds after the body at point `n`. Point 0 leaves what its run
    stores; point `n + 1` leaves what its run stores over what point `n` left. -/
def held (c : Dev nD) : (n : ℕ) → n < cfg0.N → Vec F S32x100000 .f32
  | 0, hn => outFirst c (grid0.coords ⟨0, hn⟩) (stg0 ⟨0, hn⟩) (whole0 ⟨0, hn⟩) (stg1 ⟨0, hn⟩) (whole1 ⟨0, hn⟩) (stg2 ⟨0, hn⟩) (whole2 ⟨0, hn⟩)
      (stg3 ⟨0, hn⟩) (whole3 ⟨0, hn⟩) (stg4 ⟨0, hn⟩) (whole4 ⟨0, hn⟩)
      ((first_iff ⟨0, hn⟩).mpr rfl) (fun h => (later_iff ⟨0, hn⟩).mp h rfl)
      (iblk m c 0 ⟨0, hn⟩) (iblk m c 1 ⟨0, hn⟩) (iblk m c 2 ⟨0, hn⟩) (iblk m c 3 ⟨0, hn⟩)
  | n + 1, hn => outLater c (grid0.coords ⟨n + 1, hn⟩) (stg0 ⟨n + 1, hn⟩) (whole0 ⟨n + 1, hn⟩) (stg1 ⟨n + 1, hn⟩) (whole1 ⟨n + 1, hn⟩)
      (stg2 ⟨n + 1, hn⟩) (whole2 ⟨n + 1, hn⟩) (stg3 ⟨n + 1, hn⟩) (whole3 ⟨n + 1, hn⟩) (stg4 ⟨n + 1, hn⟩) (whole4 ⟨n + 1, hn⟩)
      (fun h => Nat.succ_ne_zero n ((first_iff ⟨n + 1, hn⟩).mp h)) ((later_iff ⟨n + 1, hn⟩).mpr (Nat.succ_ne_zero n))
      (iblk m c 0 ⟨n + 1, hn⟩) (iblk m c 1 ⟨n + 1, hn⟩) (iblk m c 2 ⟨n + 1, hn⟩) (iblk m c 3 ⟨n + 1, hn⟩)
      (held c n (Nat.lt_of_succ_lt hn))

/-- `held` at point 0. -/
theorem held_first (c : Dev nD) (t : Fin cfg0.N) (h0 : t.val = 0) :
    held m c t.val t.isLt = outFirst c (grid0.coords t) (stg0 t) (whole0 t) (stg1 t) (whole1 t) (stg2 t) (whole2 t) (stg3 t) (whole3 t) (stg4 t) (whole4 t)
      ((first_iff t).mpr h0) (fun h => (later_iff t).mp h h0) (iblk m c 0 t) (iblk m c 1 t) (iblk m c 2 t) (iblk m c 3 t) := by
  obtain ⟨n, hn⟩ := t
  cases n with
  | zero => rfl
  | succ n => exact absurd h0 (Nat.succ_ne_zero n)

/-- `held` at a later point, over what the point before left. -/
theorem held_later (c : Dev nD) (t : Fin cfg0.N) (h0 : t.val ≠ 0) :
    held m c t.val t.isLt = outLater c (grid0.coords t) (stg0 t) (whole0 t) (stg1 t) (whole1 t) (stg2 t) (whole2 t) (stg3 t) (whole3 t) (stg4 t) (whole4 t)
      (fun h => h0 ((first_iff t).mp h)) ((later_iff t).mpr h0) (iblk m c 0 t) (iblk m c 1 t) (iblk m c 2 t) (iblk m c 3 t)
      (held m c (t.val - 1) (Nat.lt_of_le_of_lt (Nat.sub_le _ _) t.isLt)) := by
  obtain ⟨n, hn⟩ := t
  cases n with
  | zero => exact absurd rfl h0
  | succ n => rfl

/-! ## The pipeline's proof data -/

/-- On core `c`: the arrays as the region finds them; after the body at point `t` each input's buffer at its
    block and the result's at `held`; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => held m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = held m c t.val t.isLt := by dsimp only [dats]

/-- Each input's current staging buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- At a later point the result's staging buffer holds what the point before left: that point did not write the
    block back (only point 23 does) and the window is never idle. -/
theorem before_4_later (c : Dev nD) (t : Fin cfg0.N) (h0 : t.val ≠ 0) (d) :
    (dats m 0 c).before 4 t d = held m c (t.val - 1) (Nat.lt_of_le_of_lt (Nat.sub_le _ _) t.isLt) := by
  have hN : t.val < 24 := lt_of_lt_of_eq t.isLt (show cfg0.N = 24 from N_0)
  rw [Dat.before_out_kept _ 4 rfl t h0 (Bool.eq_false_iff.mpr fun h => by have := (flush0_4 _).mp h; dsimp only at this; omega)
    result_live (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_0 (c : Dev nD) (t : Fin cfg0.N) :
    (dats m 0 c).leavesExact 0 t = owns (c : Thread nD τ) (stg0 t) fullShare (iblk m c 0 t) := by
  unfold Dat.leavesExact; rw [show cfg0.idle 0 (cfg0.grid.coords t) = false from rfl, after_0]
theorem leaves_1 (c : Dev nD) (t : Fin cfg0.N) :
    (dats m 0 c).leavesExact 1 t = owns (c : Thread nD τ) (stg1 t) fullShare (iblk m c 1 t) := by
  unfold Dat.leavesExact; rw [show cfg0.idle 1 (cfg0.grid.coords t) = false from rfl, after_1]
theorem leaves_2 (c : Dev nD) (t : Fin cfg0.N) :
    (dats m 0 c).leavesExact 2 t = owns (c : Thread nD τ) (stg2 t) fullShare (iblk m c 2 t) := by
  unfold Dat.leavesExact; rw [show cfg0.idle 2 (cfg0.grid.coords t) = false from rfl, after_2]
theorem leaves_3 (c : Dev nD) (t : Fin cfg0.N) :
    (dats m 0 c).leavesExact 3 t = owns (c : Thread nD τ) (stg3 t) fullShare (iblk m c 3 t) := by
  unfold Dat.leavesExact; rw [show cfg0.idle 3 (cfg0.grid.coords t) = false from rfl, after_3]
theorem leaves_4 (c : Dev nD) (t : Fin cfg0.N) :
    (dats m 0 c).leavesExact 4 t = owns (c : Thread nD τ) (stg4 t) fullShare (held m c t.val t.isLt) := by
  unfold Dat.leavesExact; rw [result_live (cfg0.grid.coords t), after_4]

set_option maxHeartbeats 800000 in
/-- The body at any point. The inputs' memrefs hold their blocks. At point 0 the first run applies, whatever the
    result buffer holds; at a later point the buffer holds what the point before left, and the second run applies.
    Either way the pieces written cover the block, so the buffer ends at `held`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    leaves_0, leaves_1, leaves_2, leaves_3, leaves_4]
  by_cases h0 : t.val = 0
  · rw [held_first m c t h0]
    unfold outFirst
    iintro ⟨HΦ, Ho, ⟨%d0, H0⟩, ⟨%d1, H1⟩, ⟨%d2, H2⟩, ⟨%d3, H3⟩, ⟨%d4, H4⟩⟩
    iapply ((runFirst c (grid0.coords t) _ _ _ _ _ _ _ _ _ _ ((first_iff t).mpr h0) (fun h => (later_iff t).mp h h0)
      (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFirst c _ _ _ _ _ _ _ _ _ _ _ _ _ _ _ _ _)
  · rw [held_later m c t h0]
    simp only [before_4_later m c t h0]
    unfold outLater
    iintro ⟨HΦ, Ho, ⟨%d0, H0⟩, ⟨%d1, H1⟩, ⟨%d2, H2⟩, ⟨%d3, H3⟩, ⟨%d4, H4⟩⟩
    iapply ((runLater c (grid0.coords t) _ _ _ _ _ _ _ _ _ _ (fun h => h0 ((first_iff t).mp h)) ((later_iff t).mpr h0)
      (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverLater c _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, every array of the
    pipeline ending at what the proof data's write-backs make it and every other unscoped buffer as the region
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.LibBlockSum.lean ====
import Mathlib.Algebra.BigOperators.Fin
import Mathlib.Data.Fintype.BigOperators
import Mathlib.Logic.Equiv.Fin.Basic

/-! # Sums accumulated step by step, and a contraction cut into blocks

A block-wise matrix product accumulates, over KB steps, the partial sums of one entry: step `kb` adds the sum over
the TK contraction positions of block `kb`. Here: an accumulator defined by "first term, then add the next term" is
the sum of the terms so far; a sum over KB blocks of TK positions each is the sum over all KB · TK positions; and,
together, the accumulator after the last step is the whole contraction sum. All in any commutative additive monoid
(the extended reals are one: no finiteness is used). -/

namespace Cert.Hand.BlockSum

variable {M : Type*} [AddCommMonoid M]

/-! ## The accumulator is the sum of the terms so far -/

/-- An accumulator that starts at the first term and adds the next term at each step holds, after step `n`, the sum
    of the terms `0 … n`. The recurrence is asked only below a bound `K` (the number of steps). -/
theorem acc_eq_sum_range_of_lt (K : ℕ) (p acc : ℕ → M) (h0 : acc 0 = p 0)
    (hs : ∀ n, n + 1 < K → acc (n + 1) = acc n + p (n + 1)) (n : ℕ) (hn : n < K) :
    acc n = ∑ i ∈ Finset.range (n + 1), p i := by
  induction n with
  | zero => rw [h0, Finset.sum_range_one]
  | succ n ih => rw [hs n hn, ih (Nat.lt_of_succ_lt hn), Finset.sum_range_succ p (n + 1)]

/-- The same with the recurrence at every step. -/
theorem acc_eq_sum_range (p acc : ℕ → M) (h0 : acc 0 = p 0)
    (hs : ∀ n, acc (n + 1) = acc n + p (n + 1)) (n : ℕ) :
    acc n = ∑ i ∈ Finset.range (n + 1), p i :=
  acc_eq_sum_range_of_lt (n + 1) p acc h0 (fun m _ => hs m) n (Nat.lt_succ_self n)

/-- The same for an accumulator reset to zero before the first term is added: `acc 0 = 0 + p 0`. -/
theorem acc_eq_sum_range_of_lt_zero_add (K : ℕ) (p acc : ℕ → M) (h0 : acc 0 = 0 + p 0)
    (hs : ∀ n, n + 1 < K → acc (n + 1) = acc n + p (n + 1)) (n : ℕ) (hn : n < K) :
    acc n = ∑ i ∈ Finset.range (n + 1), p i :=
  acc_eq_sum_range_of_lt K p acc (h0.trans (zero_add _)) hs n hn

theorem acc_eq_sum_range_zero_add (p acc : ℕ → M) (h0 : acc 0 = 0 + p 0)
    (hs : ∀ n, acc (n + 1) = acc n + p (n + 1)) (n : ℕ) :
    acc n = ∑ i ∈ Finset.range (n + 1), p i :=
  acc_eq_sum_range p acc (h0.trans (zero_add _)) hs n

/-- A sum over the first `n` naturals is the sum over `Fin n`. -/
theorem sum_range_eq_sum_fin (p : ℕ → M) (n : ℕ) : ∑ i ∈ Finset.range n, p i = ∑ i : Fin n, p i.val :=
  (Fin.sum_univ_eq_sum_range p n).symm

/-- The accumulator after step `n` as a sum over `Fin (n + 1)`. -/
theorem acc_eq_sum_fin_of_lt (K : ℕ) (p acc : ℕ → M) (h0 : acc 0 = p 0)
    (hs : ∀ n, n + 1 < K → acc (n + 1) = acc n + p (n + 1)) (n : ℕ) (hn : n < K) :
    acc n = ∑ i : Fin (n + 1), p i.val :=
  (acc_eq_sum_range_of_lt K p acc h0 hs n hn).trans (sum_range_eq_sum_fin p (n + 1))

theorem acc_eq_sum_fin (p acc : ℕ → M) (h0 : acc 0 = p 0)
    (hs : ∀ n, acc (n + 1) = acc n + p (n + 1)) (n : ℕ) :
    acc n = ∑ i : Fin (n + 1), p i.val :=
  (acc_eq_sum_range p acc h0 hs n).trans (sum_range_eq_sum_fin p (n + 1))

theorem acc_eq_sum_fin_of_lt_zero_add (K : ℕ) (p acc : ℕ → M) (h0 : acc 0 = 0 + p 0)
    (hs : ∀ n, n + 1 < K → acc (n + 1) = acc n + p (n + 1)) (n : ℕ) (hn : n < K) :
    acc n = ∑ i : Fin (n + 1), p i.val :=
  acc_eq_sum_fin_of_lt K p acc (h0.trans (zero_add _)) hs n hn

/-- After the last of `K` steps: the sum of all `K` terms. -/
theorem acc_last_eq_sum_fin (K : ℕ) (hK : 0 < K) (p acc : ℕ → M) (h0 : acc 0 = p 0)
    (hs : ∀ n, n + 1 < K → acc (n + 1) = acc n + p (n + 1)) :
    acc (K - 1) = ∑ i : Fin K, p i.val := by
  obtain ⟨k, rfl⟩ : ∃ k, K = k + 1 := ⟨K - 1, by omega⟩
  exact acc_eq_sum_fin_of_lt (k + 1) p acc h0 hs k (Nat.lt_succ_self k)

/-! ## A contraction cut into blocks -/

/-- Position `kk` of block `kb` is a position of the whole contraction. -/
theorem block_lt {KB TK : ℕ} (kb : Fin KB) (kk : Fin TK) : kb.val * TK + kk.val < KB * TK :=
  calc kb.val * TK + kk.val < kb.val * TK + TK := Nat.add_lt_add_left kk.isLt _
    _ = (kb.val + 1) * TK := (Nat.succ_mul _ _).symm
    _ ≤ KB * TK := Nat.mul_le_mul_right _ kb.isLt

/-- Summing block by block is summing over all positions: position `kk` of block `kb` is `kb · TK + kk`. -/
theorem sum_blocks (KB TK : ℕ) (f : Fin (KB * TK) → M) :
    ∑ kb : Fin KB, ∑ kk : Fin TK, f ⟨kb.val * TK + kk.val, block_lt kb kk⟩ = ∑ k : Fin (KB * TK), f k := by
  rw [← Equiv.sum_comp (finProdFinEquiv (m := KB) (n := TK)) f, Fintype.sum_prod_type]
  refine Finset.sum_congr rfl fun kb _ => Finset.sum_congr rfl fun kk _ => congrArg f (Fin.ext ?_)
  show kb.val * TK + kk.val = kk.val + TK * kb.val
  rw [Nat.mul_comm, Nat.add_comm]

/-- The same at a literal extent `N = KB · TK` (for example 4 blocks of 512 at `Fin 2048`, 8 blocks of 512 at
    `Fin 4096`: `hN` is `rfl` or `by decide`); the bound on `kb · TK + kk` may be any proof `hlt`. -/
theorem sum_blocks_cast (KB TK N : ℕ) (hN : KB * TK = N) (f : Fin N → M)
    (hlt : ∀ (kb : Fin KB) (kk : Fin TK), kb.val * TK + kk.val < N := fun kb kk => hN ▸ block_lt kb kk) :
    ∑ kb : Fin KB, ∑ kk : Fin TK, f ⟨kb.val * TK + kk.val, hlt kb kk⟩ = ∑ k : Fin N, f k := by
  subst hN
  exact sum_blocks KB TK f

/-- The same for a function of the position as a natural number. -/
theorem sum_blocks_nat (KB TK : ℕ) (g : ℕ → M) :
    ∑ kb : Fin KB, ∑ kk : Fin TK, g (kb.val * TK + kk.val) = ∑ k : Fin (KB * TK), g k.val :=
  sum_blocks KB TK fun k => g k.val

theorem sum_blocks_nat_cast (KB TK N : ℕ) (hN : KB * TK = N) (g : ℕ → M) :
    ∑ kb : Fin KB, ∑ kk : Fin TK, g (kb.val * TK + kk.val) = ∑ k : Fin N, g k.val := by
  subst hN
  exact sum_blocks_nat KB TK g

/-- Four blocks of 512 positions are the 2048 positions. -/
theorem sum_blocks_4_512 (f : Fin 2048 → M) (hlt : ∀ (kb : Fin 4) (kk : Fin 512), kb.val * 512 + kk.val < 2048 := fun kb kk => by omega) :
    ∑ kb : Fin 4, ∑ kk : Fin 512, f ⟨kb.val * 512 + kk.val, hlt kb kk⟩ = ∑ k : Fin 2048, f k :=
  sum_blocks_cast 4 512 2048 rfl f hlt

/-- Eight blocks of 512 positions are the 4096 positions. -/
theorem sum_blocks_8_512 (f : Fin 4096 → M) (hlt : ∀ (kb : Fin 8) (kk : Fin 512), kb.val * 512 + kk.val < 4096 := fun kb kk => by omega) :
    ∑ kb : Fin 8, ∑ kk : Fin 512, f ⟨kb.val * 512 + kk.val, hlt kb kk⟩ = ∑ k : Fin 4096, f k :=
  sum_blocks_cast 8 512 4096 rfl f hlt

/-! ## Both: the accumulator after the last step is the whole contraction sum -/

/-- An accumulator whose step `kb` adds the sum over block `kb`'s TK positions (`hp`), started at the first
    block's sum, holds after the last of the KB steps the sum over all `N = KB · TK` positions. -/
theorem acc_last_eq_sum_blocks (KB TK N : ℕ) (hN : KB * TK = N) (hKB : 0 < KB) (f : Fin N → M) (p acc : ℕ → M)
    (hlt : ∀ (kb : Fin KB) (kk : Fin TK), kb.val * TK + kk.val < N)
    (hp : ∀ kb : Fin KB, p kb.val = ∑ kk : Fin TK, f ⟨kb.val * TK + kk.val, hlt kb kk⟩)
    (h0 : acc 0 = p 0) (hs : ∀ n, n + 1 < KB → acc (n + 1) = acc n + p (n + 1)) :
    acc (KB - 1) = ∑ k : Fin N, f k := by
  rw [acc_last_eq_sum_fin KB hKB p acc h0 hs, ← sum_blocks_cast KB TK N hN f hlt]
  exact Finset.sum_congr rfl fun kb _ => hp kb

/-- The same for an accumulator reset to zero before the first block's sum is added. -/
theorem acc_last_eq_sum_blocks_zero_add (KB TK N : ℕ) (hN : KB * TK = N) (hKB : 0 < KB) (f : Fin N → M) (p acc : ℕ → M)
    (hlt : ∀ (kb : Fin KB) (kk : Fin TK), kb.val * TK + kk.val < N)
    (hp : ∀ kb : Fin KB, p kb.val = ∑ kk : Fin TK, f ⟨kb.val * TK + kk.val, hlt kb kk⟩)
    (h0 : acc 0 = 0 + p 0) (hs : ∀ n, n + 1 < KB → acc (n + 1) = acc n + p (n + 1)) :
    acc (KB - 1) = ∑ k : Fin N, f k :=
  acc_last_eq_sum_blocks KB TK N hN hKB f p acc hlt hp (h0.trans (zero_add _)) hs

/-- The same with the block sums written out in the recurrence: no intermediate `p`. -/
theorem acc_last_eq_sum_blocks' (KB TK N : ℕ) (hN : KB * TK = N) (hKB : 0 < KB) (f : Fin N → M) (acc : ℕ → M)
    (hlt : ∀ (kb : Fin KB) (kk : Fin TK), kb.val * TK + kk.val < N)
    (h0 : acc 0 = ∑ kk : Fin TK, f ⟨(⟨0, hKB⟩ : Fin KB).val * TK + kk.val, hlt ⟨0, hKB⟩ kk⟩)
    (hs : ∀ n (h : n + 1 < KB), acc (n + 1) = acc n + ∑ kk : Fin TK, f ⟨(⟨n + 1, h⟩ : Fin KB).val * TK + kk.val, hlt ⟨n + 1, h⟩ kk⟩) :
    acc (KB - 1) = ∑ k : Fin N, f k := by
  refine acc_last_eq_sum_blocks KB TK N hN hKB f
    (fun n => if h : n < KB then ∑ kk : Fin TK, f ⟨(⟨n, h⟩ : Fin KB).val * TK + kk.val, hlt ⟨n, h⟩ kk⟩ else 0) acc hlt
    (fun kb => by rw [dif_pos kb.isLt]) (by rw [h0, dif_pos hKB]) (fun n h => by rw [hs n h, dif_pos h])

/-! ## Steps numbered through all blocks

The grid numbers its points through: point `t` is step `t % K` of block `t / K`. At a block's first step the
accumulator restarts, at the others it adds to what the point before left. -/

/-- With K steps per block, the accumulator restarted at each block's first step (`t % K = 0`) and adding the
    step's term to what step `t - 1` left otherwise holds, after step `t`, the sum of the terms from the block's
    first step `K · (t / K)` up to `t`. The two rules are asked only of the steps below `N`. -/
theorem seg_acc_eq_sum_range (K : ℕ) (hK : 0 < K) (a p : ℕ → M) (N : ℕ)
    (hA : ∀ t, t < N → t % K = 0 → a t = p t)
    (hB : ∀ t, t < N → t % K ≠ 0 → a t = a (t - 1) + p t)
    (t : ℕ) (ht : t < N) :
    a t = ∑ i ∈ Finset.range (t % K + 1), p (K * (t / K) + i) := by
  have hr : t % K < K := Nat.mod_lt _ hK
  have key := acc_eq_sum_range_of_lt (t % K + 1) (fun n => p (K * (t / K) + n)) (fun n => a (K * (t / K) + n))
    (hA (K * (t / K)) (lt_of_le_of_lt (Nat.mul_div_le t K) ht) (Nat.mul_mod_right K (t / K)))
    (fun n hn => by
      have hn' : n + 1 < K := lt_of_lt_of_le hn hr
      have hle : K * (t / K) + (n + 1) ≤ t := by
        have := Nat.div_add_mod t K
        omega
      have hm : (K * (t / K) + (n + 1)) % K ≠ 0 := by
        rw [Nat.mul_add_mod, Nat.mod_eq_of_lt hn']; exact Nat.succ_ne_zero n
      exact hB (K * (t / K) + (n + 1)) (lt_of_le_of_lt hle ht) hm)
    (t % K) (Nat.lt_succ_self _)
  have e : K * (t / K) + t % K = t := Nat.div_add_mod t K
  simpa only [e] using key

/-- The same for an accumulator reset to zero before the first term is added. -/
theorem seg_acc_eq_sum_range_zero_add (K : ℕ) (hK : 0 < K) (a p : ℕ → M) (N : ℕ)
    (hA : ∀ t, t < N → t % K = 0 → a t = 0 + p t)
    (hB : ∀ t, t < N → t % K ≠ 0 → a t = a (t - 1) + p t)
    (t : ℕ) (ht : t < N) :
    a t = ∑ i ∈ Finset.range (t % K + 1), p (K * (t / K) + i) :=
  seg_acc_eq_sum_range K hK a p N (fun t h h0 => (hA t h h0).trans (zero_add _)) hB t ht

/-- After a block's last step (`t % K = K - 1`): the sum of the block's K terms. -/
theorem seg_acc_last (K : ℕ) (hK : 0 < K) (a p : ℕ → M) (N : ℕ)
    (hA : ∀ t, t < N → t % K = 0 → a t = p t)
    (hB : ∀ t, t < N → t % K ≠ 0 → a t = a (t - 1) + p t)
    (t : ℕ) (ht : t < N) (hl : t % K = K - 1) :
    a t = ∑ i : Fin K, p (K * (t / K) + i.val) := by
  rw [seg_acc_eq_sum_range K hK a p N hA hB t ht, hl, Nat.sub_add_cancel hK]
  exact sum_range_eq_sum_fin (fun i => p (K * (t / K) + i)) K

theorem seg_acc_last_zero_add (K : ℕ) (hK : 0 < K) (a p : ℕ → M) (N : ℕ)
    (hA : ∀ t, t < N → t % K = 0 → a t = 0 + p t)
    (hB : ∀ t, t < N → t % K ≠ 0 → a t = a (t - 1) + p t)
    (t : ℕ) (ht : t < N) (hl : t % K = K - 1) :
    a t = ∑ i : Fin K, p (K * (t / K) + i.val) :=
  seg_acc_last K hK a p N (fun t h h0 => (hA t h h0).trans (zero_add _)) hB t ht hl

/-- After a block's last step, when step `kb` of the block adds the sum over the TK positions of contraction block
    `kb` (`hp`): the sum over all `Nc = KB · TK` contraction positions. -/
theorem seg_acc_last_eq_sum_blocks (KB TK Nc : ℕ) (hN : KB * TK = Nc) (hKB : 0 < KB) (f : Fin Nc → M) (a p : ℕ → M) (N : ℕ)
    (hA : ∀ t, t < N → t % KB = 0 → a t = 0 + p t)
    (hB : ∀ t, t < N → t % KB ≠ 0 → a t = a (t - 1) + p t)
    (t : ℕ) (ht : t < N) (hl : t % KB = KB - 1)
    (hlt : ∀ (kb : Fin KB) (kk : Fin TK), kb.val * TK + kk.val < Nc)
    (hp : ∀ kb : Fin KB, p (KB * (t / KB) + kb.val) = ∑ kk : Fin TK, f ⟨kb.val * TK + kk.val, hlt kb kk⟩) :
    a t = ∑ k : Fin Nc, f k := by
  rw [seg_acc_last_zero_add KB hKB a p N hA hB t ht hl, ← sum_blocks_cast KB TK Nc hN f hlt]
  exact Finset.sum_congr rfl fun kb _ => hp kb

end Cert.Hand.BlockSum
-- ==== Proof.Spec.lean ====
/-
  The function both programs compute, and the regrouping of sums that joins them.

  For hidden h (32 × 768), weights W (768 × 100000), bias b and mask m (100000 each) the masked logits are, at
  row r and column v,

      (∑ over all 768 positions k of h r k · W k v)  +  b v  +  (1 − m v) · (−10⁹)

  read over the extended reals. One side computes the contraction sum in one piece; the other accumulates it in
  24 blocks of 32 positions, having put the bias and the mask term into the accumulator with the first block.
  Addition of extended reals is commutative and associative, so the two groupings agree; no entry needs to be
  finite for that.
-/
import proofs.«129649_g78194174591064_cont_9to1_m_1273_10_alg».proof.Proof.LibBlockSum
import Idealize.ShloMosaic.PureOps.Ideal
import Idealize.ShloMosaic.Lib.ValueIdx

noncomputable section

open Idealize.ShloMosaic

namespace Cert.Hand.Logits

open Idealize.ShloMosaic.ValueIdx

/-- The word of 1.0. -/
abbrev one : EReal := Ideal.ofBits .f32 0x3F800000#32
/-- The word of −10⁹ (as an f32), the additive stand-in for "masked out". -/
abbrev big : EReal := Ideal.ofBits .f32 0xCE6E6B28#32

/-- The masked logits as ONE function of the four argument arrays, index by index. -/
def logits (h : FVec Ideal ⟨2, ![32, 768]⟩ .f32) (W : FVec Ideal ⟨2, ![768, 100000]⟩ .f32)
    (b m : FVec Ideal ⟨1, ![100000]⟩ .f32) : FVec Ideal ⟨2, ![32, 100000]⟩ .f32 :=
  fun j => (∑ k : Fin 768, h (ix2 (j 0) k) * W (ix2 k (j 1))) + b (ix1 (j 1)) + (one - m (ix1 (j 1))) * big

theorem logits_apply (h : FVec Ideal ⟨2, ![32, 768]⟩ .f32) (W : FVec Ideal ⟨2, ![768, 100000]⟩ .f32)
    (b m : FVec Ideal ⟨1, ![100000]⟩ .f32) (r : Fin 32) (v : Fin 100000) :
    logits h W b m (ix2 r v) = (∑ k : Fin 768, h (ix2 r k) * W (ix2 k v)) + b (ix1 v) + (one - m (ix1 v)) * big := rfl

/-! ## An accumulator that takes two extra terms with its first block -/

section Monoid

variable {M : Type*} [AddCommMonoid M]

/-- An accumulator started at (first term + β) + γ that adds the next term at each later step holds, after step
    `n`, the sum of the terms so far, plus β, plus γ. -/
theorem acc_with_rows (N : ℕ) (p acc : ℕ → M) (β γ : M) (h0 : acc 0 = p 0 + β + γ)
    (hs : ∀ n, n + 1 < N → acc (n + 1) = acc n + p (n + 1)) (n : ℕ) (hn : n < N) :
    acc n = (∑ i ∈ Finset.range (n + 1), p i) + β + γ := by
  induction n with
  | zero => rw [h0, Finset.sum_range_one]
  | succ n ih =>
    rw [hs n hn, ih (Nat.lt_of_succ_lt hn), Finset.sum_range_succ p (n + 1),
      add_right_comm _ γ (p (n + 1)), add_right_comm _ β (p (n + 1))]

/-- With 24 steps, step `t` adding the sum over the 32 positions of block `t` of a 768-term sum: after the last
    step the accumulator holds the whole 768-term sum, plus β, plus γ. -/
theorem acc_blocks_with_rows (f : Fin 768 → M) (acc : ℕ → M) (β γ : M)
    (h0 : acc 0 = (∑ kk : Fin 32, f ⟨0 * 32 + kk.val, by omega⟩) + β + γ)
    (hs : ∀ n (h : n + 1 < 24), acc (n + 1) = acc n + ∑ kk : Fin 32, f ⟨(n + 1) * 32 + kk.val, by omega⟩) :
    acc 23 = (∑ k : Fin 768, f k) + β + γ := by
  have key := acc_with_rows 24
    (fun n => if h : n < 24 then ∑ kk : Fin 32, f ⟨n * 32 + kk.val, by omega⟩ else 0) acc β γ
    (by rw [h0, dif_pos (by omega)]) (fun n h => by rw [hs n h, dif_pos h]) 23 (by omega)
  rw [key, Cert.Hand.BlockSum.sum_range_eq_sum_fin,
    ← Cert.Hand.BlockSum.sum_blocks_cast 24 32 768 rfl f (fun kb kk => by omega)]
  exact congrArg (· + β + γ) (Finset.sum_congr rfl fun kb _ => by rw [dif_pos kb.isLt])

end Monoid

/-! ## A product with zero, and a zero added -/

/-- `m · 0 + x = x` over the extended reals, for every `m` (a product with zero is zero there, even at the
    infinities). -/
theorem mul_zero_add (m x : EReal) : m * 0 + x = x := by rw [mul_zero, zero_add]

end Cert.Hand.Logits

end
-- ==== Proof.KernelIdeal.Value.lean ====
/-
  What the kernel's result array holds after the run, index by index, over the extended reals.

  Point 0 leaves (first partial product + bias) + mask term in the result buffer; point n + 1 adds its partial
  product to what point n left. A partial product at entry (r, v) is the sum over the 32 contraction positions of
  the point's block of  hidden r k · W k v  (the hidden block arrives transposed, position first). So after point
  n the buffer holds, at (r, v), the sum over the first 32 (n + 1) contraction positions, plus bias v, plus the
  mask term at v. Sums over the extended reals may be regrouped freely, so after point 23 this is the whole
  contraction sum plus the two rows: the masked logits.
-/
import proofs.«129649_g78194174591064_cont_9to1_m_1273_10_alg».proof.Proof.KernelIdeal.Body
import proofs.«129649_g78194174591064_cont_9to1_m_1273_10_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Body Idealize.ShloMosaic.ValueIdx Cert.Hand.Logits

/-! ## What each branch stores, as a payload of the blocks (any float instance) -/

section AnyInstance

variable {F : FTy → Type} [FloatOps F]
variable (m : (ℓ : Loc nD τ sig) → Buf (Elt F) ℓ)

/-- Point 0's one store is of the first payload of its four input blocks. -/
theorem outFirst_eq (c : Dev nD) (i : grid0.Coords)
    (a1 : Memref sig .tc .vmem S32x32 .f32) (h1 : a1.IsWhole) (a2 : Memref sig .tc .vmem S32x100000 .f32) (h2 : a2.IsWhole)
    (a3 : Memref sig .tc .vmem S1x100000 .f32) (h3 : a3.IsWhole) (a4 : Memref sig .tc .vmem S1x100000 .f32) (h4 : a4.IsWhole)
    (a5 : Memref sig .tc .vmem S32x100000 .f32) (h5 : a5.IsWhole)
    (hc1 : k0_cond1 i = 1#1) (hc2 : ¬k0_cond2 i = 1#1)
    (x0 : Vec F S32x32 .f32) (x1 : Vec F S32x100000 .f32) (x2 : Vec F S1x100000 .f32) (x3 : Vec F S1x100000 .f32) :
    outFirst c i a1 h1 a2 h2 a3 h3 a4 h4 a5 h5 hc1 hc2 x0 x1 x2 x3 = k0_pay2 x0 x1 x2 x3 := by
  unfold outFirst
  rw [View.read_writes_eq_canon _ _ _ (coverFirst c i a1 h1 a2 h2 a3 h3 a4 h4 a5 h5 hc1 hc2 x0 x1 x2 x3)]
  unfold runFirst
  dsimp only
  sl_unfold_words
  rw [View.canon_unit_zero hz]
  simp only [View.readAt_eq_ld, h1.read_unread, h2.read_unread, h3.read_unread, h4.read_unread,
    View.ld_unit_zero (S := S32x32) hz, View.ld_unit_zero (S := S32x100000) hz, View.ld_unit_zero (S := S1x100000) hz]

/-- A later point's one store is of the accumulating payload: what it found plus its partial product. -/
theorem outLater_eq (c : Dev nD) (i : grid0.Coords)
    (a1 : Memref sig .tc .vmem S32x32 .f32) (h1 : a1.IsWhole) (a2 : Memref sig .tc .vmem S32x100000 .f32) (h2 : a2.IsWhole)
    (a3 : Memref sig .tc .vmem S1x100000 .f32) (h3 : a3.IsWhole) (a4 : Memref sig .tc .vmem S1x100000 .f32) (h4 : a4.IsWhole)
    (a5 : Memref sig .tc .vmem S32x100000 .f32) (h5 : a5.IsWhole)
    (hc1 : ¬k0_cond1 i = 1#1) (hc2 : k0_cond2 i = 1#1)
    (x0 : Vec F S32x32 .f32) (x1 : Vec F S32x100000 .f32) (x2 : Vec F S1x100000 .f32) (x3 : Vec F S1x100000 .f32)
    (acc : Vec F S32x100000 .f32) :
    outLater c i a1 h1 a2 h2 a3 h3 a4 h4 a5 h5 hc1 hc2 x0 x1 x2 x3 acc = k0_pay3 x0 x1 acc := by
  unfold outLater
  rw [View.read_writes_eq_canon _ _ _ (coverLater c i a1 h1 a2 h2 a3 h3 a4 h4 a5 h5 hc1 hc2 x0 x1 x2 x3 acc)]
  unfold runLater
  dsimp only
  sl_unfold_words
  rw [View.canon_unit_zero hz]
  simp only [View.readAt_eq_ld, h1.read_unread, h2.read_unread, h5.read_unread,
    View.ld_unit_zero (S := S32x32) hz, View.ld_unit_zero (S := S32x100000) hz]

/-- After point 0. -/
theorem held_zero (c : Dev nD) (h : 0 < cfg0.N) :
    held m c 0 h = k0_pay2 (iblk m c 0 ⟨0, h⟩) (iblk m c 1 ⟨0, h⟩) (iblk m c 2 ⟨0, h⟩) (iblk m c 3 ⟨0, h⟩) :=
  (held_first m c ⟨0, h⟩ rfl).trans (outFirst_eq ..)

/-- After point n + 1, over what point n left. -/
theorem held_succ (c : Dev nD) (n : ℕ) (h : n + 1 < cfg0.N) :
    held m c (n + 1) h = k0_pay3 (iblk m c 0 ⟨n + 1, h⟩) (iblk m c 1 ⟨n + 1, h⟩) (held m c n (Nat.lt_of_succ_lt h)) :=
  (held_later m c ⟨n + 1, h⟩ (Nat.succ_ne_zero n)).trans (outLater_eq ..)

end AnyInstance

/-! ## The payloads at an entry, over the extended reals -/

section Payloads

theorem lhs_axis0 (j : S32x100000.Idx) (q : dot_S32x32_S32x100000_S32x100000_0_0_1_1_n_n.contr.Idx) :
    (dot_S32x32_S32x100000_S32x100000_0_0_1_1_n_n.lhsIdx j q 0).val = (q ⟨0, by decide⟩).val :=
  dot_S32x32_S32x100000_S32x100000_0_0_1_1_n_n.lhsIdx_val_of_single rfl j q
theorem lhs_axis1 (j : S32x100000.Idx) (q : dot_S32x32_S32x100000_S32x100000_0_0_1_1_n_n.contr.Idx) :
    (dot_S32x32_S32x100000_S32x100000_0_0_1_1_n_n.lhsIdx j q 1).val = (j 0).val := by
  unfold DotDims.lhsIdx
  rw [dif_neg (show ¬(1 : Fin S32x32.rank) ∈ dot_S32x32_S32x100000_S32x100000_0_0_1_1_n_n.lhsBatch by decide), dif_pos (show (1 : Fin S32x32.rank) ∈ dot_S32x32_S32x100000_S32x100000_0_0_1_1_n_n.lhsNonContracting by decide)]
  rfl
theorem rhs_axis0 (j : S32x100000.Idx) (q : dot_S32x32_S32x100000_S32x100000_0_0_1_1_n_n.contr.Idx) :
    (dot_S32x32_S32x100000_S32x100000_0_0_1_1_n_n.rhsIdx j q 0).val = (q ⟨0, by decide⟩).val :=
  dot_S32x32_S32x100000_S32x100000_0_0_1_1_n_n.rhsIdx_val_of_single rfl j q
theorem rhs_axis1 (j : S32x100000.Idx) (q : dot_S32x32_S32x100000_S32x100000_0_0_1_1_n_n.contr.Idx) :
    (dot_S32x32_S32x100000_S32x100000_0_0_1_1_n_n.rhsIdx j q 1).val = (j 1).val := by
  unfold DotDims.rhsIdx
  rw [dif_neg (show ¬(1 : Fin S32x100000.rank) ∈ dot_S32x32_S32x100000_S32x100000_0_0_1_1_n_n.rhsBatch by decide), dif_pos (show (1 : Fin S32x100000.rank) ∈ dot_S32x32_S32x100000_S32x100000_0_0_1_1_n_n.rhsNonContracting by decide)]
  rfl

/-- A point's partial product at entry (r, v): the sum over the block's 32 positions k of (hidden block) k r times
    (weight block) k v — both blocks carry the contraction position on their first axis. -/
theorem pay1_apply (x0 : Vec Ideal S32x32 .f32) (x1 : Vec Ideal S32x100000 .f32) (r : Fin 32) (v : Fin 100000) :
    k0_pay1 x0 x1 (ix2 r v) = ∑ k : Fin 32, x0 (ix2 k r) * x1 (ix2 k v) := by
  unfold k0_pay1
  simp only [matmul]
  rw [shapeCast_self, Ideal.matmul_constant_zero_apply, ← Equiv.sum_comp (contrEquiv1 dot_S32x32_S32x100000_S32x100000_0_0_1_1_n_n 32 rfl rfl).symm]
  refine Finset.sum_congr rfl fun k _ => ?_
  have hk := contrEquiv1_symm_val dot_S32x32_S32x100000_S32x100000_0_0_1_1_n_n 32 rfl rfl k
  have el : dot_S32x32_S32x100000_S32x100000_0_0_1_1_n_n.lhsIdx (ix2 r v) ((contrEquiv1 dot_S32x32_S32x100000_S32x100000_0_0_1_1_n_n 32 rfl rfl).symm k) = ix2 k r := funext fun a => Fin.ext (by
    match a with
    | ⟨0, _⟩ => exact (lhs_axis0 _ _).trans hk
    | ⟨1, _⟩ => exact lhs_axis1 _ _)
  have er : dot_S32x32_S32x100000_S32x100000_0_0_1_1_n_n.rhsIdx (ix2 r v) ((contrEquiv1 dot_S32x32_S32x100000_S32x100000_0_0_1_1_n_n 32 rfl rfl).symm k) = ix2 k v := funext fun a => Fin.ext (by
    match a with
    | ⟨0, _⟩ => exact (rhs_axis0 _ _).trans hk
    | ⟨1, _⟩ => exact rhs_axis1 _ _)
  rw [el, er]

/-- A row vector spread over the 32 rows reads, at (r, v), its entry v. -/
theorem spread_apply (x : Vec Ideal S1x100000 .f32) (r : Fin 32) (v : Fin 100000) :
    broadcastTo S32x100000 x broadcasts_S1x100000_S32x100000 (ix2 r v) = x (ix2 0 v) :=
  broadcastTo_apply x broadcasts_S1x100000_S32x100000 (ix2 r v) (ix2 0 v) (fun a => match a with
    | ⟨0, _⟩ => by show 0 = if (1 : Nat) = 1 then 0 else r.val; rw [if_pos rfl]
    | ⟨1, _⟩ => by show v.val = if (100000 : Nat) = 1 then 0 else v.val; rw [if_neg (by decide)])

/-- What point 0 stores, at (r, v): (partial product + bias v) + (1 − mask v) · (−10⁹). -/
theorem pay2_apply (x0 : Vec Ideal S32x32 .f32) (x1 : Vec Ideal S32x100000 .f32) (x2 x3 : Vec Ideal S1x100000 .f32)
    (r : Fin 32) (v : Fin 100000) :
    k0_pay2 x0 x1 x2 x3 (ix2 r v)
      = (∑ k : Fin 32, x0 (ix2 k r) * x1 (ix2 k v)) + x2 (ix2 0 v) + (one - x3 (ix2 0 v)) * big := by
  show (k0_pay1 x0 x1 (ix2 r v)
        + broadcastTo S32x100000 (shapeCast S1x100000 x2 shapeCasts_S1x100000_S1x100000) broadcasts_S1x100000_S32x100000 (ix2 r v))
      + broadcastTo S32x100000 (mulf (subf (broadcast S1x100000 (Scalar.ofBits (F := Ideal) .f32 0x3F800000#32))
          (shapeCast S1x100000 x3 shapeCasts_S1x100000_S1x100000)) (broadcast S1x100000 (Scalar.ofBits (F := Ideal) .f32 0xCE6E6B28#32)))
          broadcasts_S1x100000_S32x100000 (ix2 r v) = _
  rw [pay1_apply, spread_apply, spread_apply, shapeCast_self, shapeCast_self]
  rfl

/-- What a later point stores, at (r, v): what it found there plus its partial product. -/
theorem pay3_apply (x0 : Vec Ideal S32x32 .f32) (x1 : Vec Ideal S32x100000 .f32) (acc : Vec Ideal S32x100000 .f32)
    (r : Fin 32) (v : Fin 100000) :
    k0_pay3 x0 x1 acc (ix2 r v) = acc (ix2 r v) + ∑ k : Fin 32, x0 (ix2 k r) * x1 (ix2 k v) := by
  show shapeCast S32x100000 acc shapeCasts_S32x100000_S32x100000 (ix2 r v) + k0_pay1 x0 x1 (ix2 r v) = _
  rw [pay1_apply, shapeCast_self]

end Payloads

/-! ## The blocks at an entry, as entries of the argument arrays -/

section Blocks

variable (m : (ℓ : Loc nD τ sig) → Buf (Elt Ideal) ℓ)

/-- The region finds the hidden array transposed, -/
theorem hidT_eq (c : Dev nD) : (V m c main_v2 : Vec Ideal S768x32 .f32)
    = transpose S768x32 [1, 0] (m ((c : Thread nD τ).loc main_arg0)) transposes_S32x768_S768x32_1_0 := by
  dsimp only [Gen.V, Gen.hostOps0]; after_results <;> rfl

/-- the bias as a one-row matrix, -/
theorem biasRow_eq (c : Dev nD) : (V m c main_v0 : Vec Ideal S1x100000 .f32)
    = shapeCast S1x100000 (m ((c : Thread nD τ).loc main_arg2)) shapeCasts_S100000_S1x100000 := by
  dsimp only [Gen.V, Gen.hostOps0]; after_results <;> rfl

/-- and the mask likewise. -/
theorem maskRow_eq (c : Dev nD) : (V m c main_v1 : Vec Ideal S1x100000 .f32)
    = shapeCast S1x100000 (m ((c : Thread nD τ).loc main_arg3)) shapeCasts_S100000_S1x100000 := by
  dsimp only [Gen.V, Gen.hostOps0]; after_results <;> rfl

/-- Point t's hidden and weight blocks are block t along the contraction axis; the bias and mask rows are whole. -/
theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)

/-- The four argument arrays and the four blocks of a point, under their literal types. -/
abbrev hid (c : Dev nD) : FVec Ideal S32x768 .f32 := m ((c : Thread nD τ).loc main_arg0)
abbrev wts (c : Dev nD) : FVec Ideal S768x100000 .f32 := m ((c : Thread nD τ).loc main_arg1)
abbrev bias (c : Dev nD) : FVec Ideal S100000 .f32 := m ((c : Thread nD τ).loc main_arg2)
abbrev mask (c : Dev nD) : FVec Ideal S100000 .f32 := m ((c : Thread nD τ).loc main_arg3)
abbrev hidBlock (c : Dev nD) (t : Fin cfg0.N) : Vec Ideal S32x32 .f32 := iblk m c 0 t
abbrev wBlock (c : Dev nD) (t : Fin cfg0.N) : Vec Ideal S32x100000 .f32 := iblk m c 1 t
abbrev biasBlock (c : Dev nD) (t : Fin cfg0.N) : Vec Ideal S1x100000 .f32 := iblk m c 2 t
abbrev maskBlock (c : Dev nD) (t : Fin cfg0.N) : Vec Ideal S1x100000 .f32 := iblk m c 3 t

/-- The hidden block of point t at (k, r) is hidden r (32 t + k). -/
theorem hidBlock_apply (c : Dev nD) (t : Fin cfg0.N) (k r : Fin 32) (hk : t.val * 32 + k.val < 768) :
    hidBlock m c t (ix2 k r) = hid m c (ix2 r ⟨t.val * 32 + k.val, hk⟩) := by
  unfold hidBlock hid iblk
  rw [View.read_apply]
  show V m c main_v2 _ = _
  refine (congrFun (hidT_eq m c) _).trans ?_
  refine transpose_apply [1, 0] _ transposes_S32x768_S768x32_1_0 _ (ix2 r ⟨t.val * 32 + k.val, hk⟩) (fun b => ?_)
  match b with
  | ⟨0, _⟩ => show t.val * 32 + k.val = win0_0.index t 0 * 32 + 1 * k.val; rw [(index0 t).1]; omega
  | ⟨1, _⟩ => show r.val = win0_0.index t 1 * 32 + 1 * r.val; rw [(index0 t).2]; omega

/-- The weight block of point t at (k, v) is W (32 t + k) v. -/
theorem wBlock_apply (c : Dev nD) (t : Fin cfg0.N) (k : Fin 32) (v : Fin 100000) (hk : t.val * 32 + k.val < 768) :
    wBlock m c t (ix2 k v) = wts m c (ix2 ⟨t.val * 32 + k.val, hk⟩ v) := by
  unfold wBlock wts iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 32 + 1 * k.val = t.val * 32 + k.val; rw [(index1 t).1]; omega
  | ⟨1, _⟩ => show win0_1.index t 1 * 100000 + 1 * v.val = v.val; rw [(index1 t).2]; omega

/-- The bias row of any point at (0, v) is bias v. -/
theorem biasBlock_apply (c : Dev nD) (t : Fin cfg0.N) (v : Fin 100000) :
    biasBlock m c t (ix2 0 v) = bias m c (ix1 v) := by
  unfold biasBlock bias iblk
  rw [View.read_apply]
  show V m c main_v0 _ = _
  refine (congrFun (biasRow_eq m c) _).trans ?_
  refine shapeCast_apply _ shapeCasts_S100000_S1x100000 _ (ix1 v) ?_
  rewrite [Shape.rowMajor_val_one, Shape.rowMajor_val_two]
  show v.val = (win0_2.index t 0 * 1 + 1 * 0) * 100000 + (win0_2.index t 1 * 100000 + 1 * v.val)
  rw [(index2 t).1, (index2 t).2]; omega

/-- The mask row of any point at (0, v) is mask v. -/
theorem maskBlock_apply (c : Dev nD) (t : Fin cfg0.N) (v : Fin 100000) :
    maskBlock m c t (ix2 0 v) = mask m c (ix1 v) := by
  unfold maskBlock mask iblk
  rw [View.read_apply]
  show V m c main_v1 _ = _
  refine (congrFun (maskRow_eq m c) _).trans ?_
  refine shapeCast_apply _ shapeCasts_S100000_S1x100000 _ (ix1 v) ?_
  rewrite [Shape.rowMajor_val_one, Shape.rowMajor_val_two]
  show v.val = (win0_3.index t 0 * 1 + 1 * 0) * 100000 + (win0_3.index t 1 * 100000 + 1 * v.val)
  rw [(index3 t).1, (index3 t).2]; omega

end Blocks

/-! ## The accumulation at an entry, and the result array -/

section Final

variable (m : (ℓ : Loc nD τ sig) → Buf (Elt Ideal) ℓ) (ρ : Dev nD → PrngReg)

/-- The 768 products whose sum is the contraction at entry (r, v). -/
def term (c : Dev nD) (r : Fin 32) (v : Fin 100000) (k : Fin 768) : EReal :=
  hid m c (ix2 r k) * wts m c (ix2 k v)

/-- The masked logits of the launch contents of the four argument arrays. -/
abbrev result (c : Dev nD) : FVec Ideal S32x100000 .f32 := logits (hid m c) (wts m c) (bias m c) (mask m c)

/-- Point t's partial product at (r, v), in the argument arrays' entries. -/
theorem partial_apply (c : Dev nD) (t : Fin cfg0.N) (r : Fin 32) (v : Fin 100000)
    (hlt : ∀ kk : Fin 32, t.val * 32 + kk.val < 768) :
    (∑ k : Fin 32, hidBlock m c t (ix2 k r) * wBlock m c t (ix2 k v))
      = ∑ kk : Fin 32, term m c r v ⟨t.val * 32 + kk.val, hlt kk⟩ :=
  Finset.sum_congr rfl fun kk _ => by
    rw [hidBlock_apply m c t kk r (hlt kk), wBlock_apply m c t kk v (hlt kk)]; rfl

/-- After point 0, at (r, v): the first block's sum, plus bias v, plus the mask term at v. -/
theorem held_zero_apply (c : Dev nD) (h : 0 < cfg0.N) (r : Fin 32) (v : Fin 100000) :
    held m c 0 h (ix2 r v) = (∑ kk : Fin 32, term m c r v ⟨0 * 32 + kk.val, by omega⟩)
      + bias m c (ix1 v) + (one - mask m c (ix1 v)) * big := by
  refine (congrFun (held_zero m c h) (ix2 r v)).trans ?_
  refine (pay2_apply (hidBlock m c ⟨0, h⟩) (wBlock m c ⟨0, h⟩) (biasBlock m c ⟨0, h⟩) (maskBlock m c ⟨0, h⟩) r v).trans ?_
  rw [biasBlock_apply m c ⟨0, h⟩ v, maskBlock_apply m c ⟨0, h⟩ v,
    partial_apply m c ⟨0, h⟩ r v (fun kk => by show 0 * 32 + kk.val < 768; omega)]

/-- After point n + 1, at (r, v): what point n left there plus block n + 1's sum. -/
theorem held_succ_apply (c : Dev nD) (n : ℕ) (h : n + 1 < cfg0.N) (r : Fin 32) (v : Fin 100000) (h24 : n + 1 < 24) :
    held m c (n + 1) h (ix2 r v) = held m c n (Nat.lt_of_succ_lt h) (ix2 r v)
      + ∑ kk : Fin 32, term m c r v ⟨(n + 1) * 32 + kk.val, by omega⟩ := by
  refine (congrFun (held_succ m c n h) (ix2 r v)).trans ?_
  refine (pay3_apply (hidBlock m c ⟨n + 1, h⟩) (wBlock m c ⟨n + 1, h⟩) (held m c n (Nat.lt_of_succ_lt h)) r v).trans ?_
  rw [partial_apply m c ⟨n + 1, h⟩ r v (fun kk => by show (n + 1) * 32 + kk.val < 768; omega)]

theorem N24 : cfg0.N = 24 := N_0

/-- After the last point the result buffer holds the masked logits of the argument arrays. -/
theorem held_last (c : Dev nD) (h : 23 < cfg0.N) : held m c 23 h = result m c := by
  funext j
  obtain ⟨r, v, rfl⟩ : ∃ (r : Fin 32) (v : Fin 100000), j = ix2 r v := ⟨j 0, j 1, eq_ix2 j⟩
  show _ = logits (hid m c) (wts m c) (bias m c) (mask m c) (ix2 r v)
  rw [logits_apply]
  have key := acc_blocks_with_rows (term m c r v)
    (fun n => if hn : n < cfg0.N then held m c n hn (ix2 r v) else 0)
    (bias m c (ix1 v)) ((one - mask m c (ix1 v)) * big)
    (by rw [dif_pos (by rw [N24]; omega)]; exact held_zero_apply m c _ r v)
    (fun n hn => by
      rw [dif_pos (show n + 1 < cfg0.N by rw [N24]; exact hn), dif_pos (show n < cfg0.N by rw [N24]; omega)]
      exact held_succ_apply m c n _ r v hn)
  rw [dif_pos h] at key
  exact key

/-- The last grid point, the one whose body's result is written back. -/
abbrev lastPoint : Fin cfg0.N := ⟨23, by decide⟩

/-- The one write-back, after point 23, writes the whole result array: block (0, 0) of a 32 × 100000 array cut in
    blocks of 32 × 100000. -/
theorem flushed_eq (c : Dev nD) (t : Fin cfg0.N) (hf : (cfg0.win 4).flush t = true) :
    (dats m 0 c).flushed 4 t = ((cfg0.win 4).blk t).view.read (Elt Ideal)
      (result m c : Buf (Elt Ideal) ((c : Thread nD τ).loc main_v3)) := by
  have hN : cfg0.N = 24 := N_0
  have h23 : t.val = 23 := by have := (flush0_4 t).mp hf; have := t.isLt; omega
  obtain rfl : t = lastPoint := Fin.ext h23
  show (cfg0.win 4).cut (grid0.coords lastPoint) ((dats m 0 c).after 4 lastPoint) = _
  rw [after_4, held_last]
  have hz' : (fun a => win0_4.index lastPoint a * main_v3.ty.shape.size a) = fun _ => 0 :=
    funext fun a => by fin_cases a <;> decide
  exact (Memref.read_access_unit_zero (Elt Ideal) main_v3 hz' (fun a => by rw [congrFun hz' a]; simp) (result m c)).symm

/-- So the result array ends holding the masked logits: the one block written back is the whole array. -/
theorem final (c : Dev nD) : (dats m 0 c).arrAt 4 cfg0.N = result m c :=
  (dats m 0 c).arrAt_eq_of_cover 4 (result m c) (flushed_eq m c) fun i =>
    ⟨lastPoint, (flush0_4 lastPoint).mpr rfl, by
      show i ∈ ((View.whole main_v3).slice (win0_4.rect lastPoint)).set
      rw [View.set_slice_whole, Rect.mem_set_unit]
      intro a
      have h0 : (i 0 : Nat) < 32 := (i 0).isLt
      have h1 : (i 1 : Nat) < 100000 := (i 1).isLt
      match a with
      | ⟨0, _⟩ =>
        show win0_4.index lastPoint 0 * win0_4.size 0 ≤ (i 0 : Nat)
          ∧ (i 0 : Nat) < win0_4.index lastPoint 0 * win0_4.size 0 + win0_4.xsize (grid0.coords lastPoint) 0
        rw [show win0_4.index lastPoint 0 * win0_4.size 0 = 0 from by decide +kernel,
          show win0_4.xsize (grid0.coords lastPoint) 0 = 32 from by decide +kernel]; omega
      | ⟨1, _⟩ =>
        show win0_4.index lastPoint 1 * win0_4.size 1 ≤ (i 1 : Nat)
          ∧ (i 1 : Nat) < win0_4.index lastPoint 1 * win0_4.size 1 + win0_4.xsize (grid0.coords lastPoint) 1
        rw [show win0_4.index lastPoint 1 * win0_4.size 1 = 0 from by decide +kernel,
          show win0_4.xsize (grid0.coords lastPoint) 1 = 100000 from by decide +kernel]; omega⟩

/-- The kernel's run, read: the result array ends at the masked logits of the arguments, the arguments unchanged. -/
theorem run : θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 4).trans (final m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Final

end Cert.KernelIdeal.Result

end
-- ==== Proof.Reference.lean ====
/-
  The reference's result, index by index: it is the masked logits.

  The reference computes  (hidden · W + bias) + (mask · 0 + (1 − mask) · (−10⁹)),  the contraction in one piece.
  Over the extended reals a product with zero is zero and a zero added changes nothing, so the second summand is the
  mask term alone, and the whole is the masked-logits function of the four arguments.
-/
import proofs.«129649_g78194174591064_cont_9to1_m_1273_10_alg».proof.Defs
import proofs.«129649_g78194174591064_cont_9to1_m_1273_10_alg».proof.Proof.Gen.ReferenceIdeal
import proofs.«129649_g78194174591064_cont_9to1_m_1273_10_alg».proof.Proof.Gen.ReferenceIdeal.Run
import proofs.«129649_g78194174591064_cont_9to1_m_1273_10_alg».proof.Proof.Gen.ReferenceIdeal.Read
import proofs.«129649_g78194174591064_cont_9to1_m_1273_10_alg».proof.Proof.Spec

noncomputable section

open Idealize.ShloMosaic Idealize.ShloMosaic.TcCoe Idealize.SL.Sem

namespace Cert.ReferenceIdeal.Result

open Cert.ReferenceIdeal Cert.ReferenceIdeal.Gen Cert.ReferenceIdeal.Read Idealize.ShloMosaic.ValueIdx Cert.Hand.Logits

/-- Where the reference's stages read their operands, at a result entry (r, v). -/
theorem lidx_eq (r : Fin 32) (v : Fin 100000) (k : Fin 768) : lidx_main_v0 (ix2 r v) k = ix2 r k :=
  funext fun a => Fin.ext (by match a with | ⟨0, _⟩ => rfl | ⟨1, _⟩ => rfl)
theorem ridx_eq (r : Fin 32) (v : Fin 100000) (k : Fin 768) : ridx_main_v0 (ix2 r v) k = ix2 k v :=
  funext fun a => Fin.ext (by match a with | ⟨0, _⟩ => rfl | ⟨1, _⟩ => rfl)
theorem biasIdx_eq (r : Fin 32) (v : Fin 100000) : idx_main_v1 (idx_main_v2 (ix2 r v)) = ix1 v :=
  funext fun a => Fin.ext (by match a with | ⟨0, _⟩ => rfl)
theorem maskIdx_eq (r : Fin 32) (v : Fin 100000) : idx_main_v4 (idx_main_v12 (ix2 r v)) = ix1 v :=
  funext fun a => Fin.ext (by match a with | ⟨0, _⟩ => show 0 * 100000 + v.val = v.val; omega)

/-- The reference's last stage IS the masked logits of its four arguments. -/
theorem result_eq (x0 : (⟨S32x768, .f32⟩ : BufTy).Contents (Elt Ideal)) (x1 : (⟨S768x100000, .f32⟩ : BufTy).Contents (Elt Ideal))
    (x2 x3 : (⟨S100000, .f32⟩ : BufTy).Contents (Elt Ideal)) :
    val_main_v13 (F := Ideal) x0 x1 x2 x3 = logits x0 x1 x2 x3 := by
  funext j
  obtain ⟨r, v, rfl⟩ : ∃ (r : Fin 32) (v : Fin 100000), j = ix2 r v := ⟨j 0, j 1, eq_ix2 j⟩
  rw [logits_apply]
  simp only [val_main_v13_apply, val_main_v3_apply, val_main_v0_apply, val_main_v2_apply, val_main_v1_apply,
    val_main_v12_apply, val_main_v11_apply, val_main_v6_apply, val_main_v10_apply, val_main_v8_apply, val_main_v4_apply,
    val_main_v5_apply, val_main_v7_apply, val_main_v9_apply, val_main_cst_apply, val_main_cst_0_apply, val_main_cst_1_apply,
    lidx_eq, ridx_eq, biasIdx_eq, maskIdx_eq, Ideal.addf_def, Ideal.mulf_def, Ideal.subf_def, Ideal.ofBits_def,
    Ideal.ofBits_zero_f32, mul_zero, zero_add]

/-- The reference's run, read: its result array ends at the masked logits of its arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = logits (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans ((val_main_v13_eq _ _ _ _).trans (result_eq _ _ _ _)), (h c).2⟩)
    (Cert.ReferenceIdeal.Value.run (F := Ideal) m ρ)

end Cert.ReferenceIdeal.Result

end
-- ==== Proof.lean ====
/-
  The certificate: the kernel computes the reference's masked logits.

  Both programs, over the extended reals, end with their result array at ONE function of the four arguments:
  at row r and column v,  (∑ over the 768 positions k of hidden r k · W k v) + bias v + (1 − mask v) · (−10⁹).
  The reference computes the contraction in one piece and adds mask · 0, which is zero; the kernel accumulates the
  contraction over its 24 grid points, 32 positions at a time, having added the bias and the mask term at the first
  point. Regrouping a sum of extended reals changes nothing, so the two results are equal entry by entry.

  The three frames: each kernel program's grid run leaves the arguments unchanged (proved once for any float
  instance, read at the word-level and at the ideal instance); the reference is a straight line of host
  operations. The idealization rewrote nothing, so there is nothing to preserve.
-/
import proofs.«129649_g78194174591064_cont_9to1_m_1273_10_alg».proof.Defs
import proofs.«129649_g78194174591064_cont_9to1_m_1273_10_alg».proof.Proof.Gen.Kernel
import proofs.«129649_g78194174591064_cont_9to1_m_1273_10_alg».proof.Proof.Gen.KernelIdeal
import proofs.«129649_g78194174591064_cont_9to1_m_1273_10_alg».proof.Proof.Gen.ReferenceIdeal
import proofs.«129649_g78194174591064_cont_9to1_m_1273_10_alg».proof.Proof.Gen.Pre_finite_inputs
import proofs.«129649_g78194174591064_cont_9to1_m_1273_10_alg».proof.Proof.Kernel.Body
import proofs.«129649_g78194174591064_cont_9to1_m_1273_10_alg».proof.Proof.KernelIdeal.Body
import proofs.«129649_g78194174591064_cont_9to1_m_1273_10_alg».proof.Proof.KernelIdeal.Value
import proofs.«129649_g78194174591064_cont_9to1_m_1273_10_alg».proof.Proof.Reference
import Idealize.ShloMosaic.Adequacy
import Idealize.ShloMosaic.Init

noncomputable section

namespace Cert.Proof

open Idealize.ShloMosaic Idealize.SL.Sem

theorem frame_kernel : Cert.frame_Kernel := fun m ρ _ => Cert.Kernel.Body.frame m ρ

theorem frame_kernelIdeal : Cert.frame_KernelIdeal := fun m ρ _ => Cert.KernelIdeal.Body.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end at the masked logits of those arguments. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Result.run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
